-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S2048x128 : Shape := ⟨2, ![2048, 128]⟩
abbrev S16384 : Shape := ⟨1, ![16384]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S2048x128 : S_.BroadcastsInDim S2048x128 (![] : Fin 0 → Fin S2048x128.rank)
  reducesTo_S2048x128_S_d0_1 : S2048x128.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S16384x128 .f32) (main_arg1 : FVec F S2048x128 .f32) (main_arg2 : IVec S16384 32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S2048x128 .f32 := Host.absf main_arg1
  let main_cst_0 : FVec F S_ .f32 := constant S_ .f32 0x7F800000#32
  let main_v5 : FVec F S2048x128 .f32 := broadcastInDim S2048x128 ![] bcast_S_S2048x128 main_cst_0
  let main_v6 : IVec S2048x128 1 := cmpf .olt main_v4 main_v5
  let main_c_1 : IVec S_ 1 := constantI S_ 1 1#1
  let main_v7 : IVec S_ 1 := (fun x v => Host.reduce IntOp.andi x v reducesTo_S2048x128_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg2 main_v9
  let main_c_3 : IVec S_ 32 := constantI S_ 32 2048#32
  let main_v11 : IVec S16384 32 := broadcastInDim S16384 ![] bcast_S_S16384 main_c_3
  let main_v12 : IVec S16384 1 := cmpi .slt main_arg2 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  main_v15
-- ==== Kernel.lean ====
abbrev S16384x128 : Shape := ⟨2, ![16384, 128]⟩
abbrev S2048x128 : Shape := ⟨2, ![2048, 128]⟩
abbrev S16384 : Shape := ⟨1, ![16384]⟩
abbrev S_ : Shape := ⟨0, ![]⟩
abbrev S16384x1 : Shape := ⟨2, ![16384, 1]⟩
abbrev S2048 : Shape := ⟨1, ![2048]⟩
abbrev S2048x1 : Shape := ⟨2, ![2048, 1]⟩
abbrev S1x2048 : Shape := ⟨2, ![1, 2048]⟩
abbrev S2x1x128 : Shape := ⟨3, ![2, 1, 128]⟩
abbrev S512x128 : Shape := ⟨2, ![512, 128]⟩
abbrev S512x1 : Shape := ⟨2, ![512, 1]⟩
abbrev S1x1x128 : Shape := ⟨3, ![1, 1, 128]⟩
abbrev S512 : Shape := ⟨1, ![512]⟩
abbrev S512x2048 : Shape := ⟨2, ![512, 2048]⟩
abbrev S1x512x1 : Shape := ⟨3, ![1, 512, 1]⟩
abbrev S1 : Shape := ⟨1, ![1]⟩
abbrev S1x1x1 : Shape := ⟨3, ![1, 1, 1]⟩
abbrev S2x1x1 : Shape := ⟨3, ![2, 1, 1]⟩
abbrev S2 : Shape := ⟨1, ![2]⟩

abbrev nBuf : Space → Nat
  | .hbm => 24
  | .vmem => 8
  | .smem => 0
  | _ => 0

abbrev bufTy : (tb : Table) → Fin (tcTables nBuf tb) → BufTy
  | .hbm, ⟨0, _⟩ => ⟨S16384x128, .f32⟩
  | .hbm, ⟨1, _⟩ => ⟨S2048x128, .f32⟩
  | .hbm, ⟨2, _⟩ => ⟨S16384, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384x1, .i32⟩
  | .hbm, ⟨12, _⟩ => ⟨S2048x128, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S1x2048, .f32⟩
  | .hbm, ⟨17, _⟩ => ⟨S2x1x128, .f32⟩
  | .hbm, ⟨18, _⟩ => ⟨S2x1x1, .f32⟩
  | .hbm, ⟨19, _⟩ => ⟨S2, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S512x128, .f32⟩
  | .local _ .vmem, ⟨1, _⟩ => ⟨S512x128, .f32⟩
  | .local _ .vmem, ⟨2, _⟩ => ⟨S2048x128, .f32⟩
  | .local _ .vmem, ⟨3, _⟩ => ⟨S1x2048, .f32⟩
  | .local _ .vmem, ⟨4, _⟩ => ⟨S512x1, .i32⟩
  | .local _ .vmem, ⟨5, _⟩ => ⟨S512x1, .i32⟩
  | .local _ .vmem, ⟨6, _⟩ => ⟨S1x1x128, .f32⟩
  | .local _ .vmem, ⟨7, _⟩ => ⟨S1x1x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S16384 : S_.BroadcastsInDim S16384 (![] : Fin 0 → Fin S16384.rank)
  shapeCasts_S16384_S16384x1 : S16384.ShapeCasts S16384x1
  reducesTo_S2048x128_S2048_d1 : S2048x128.ReducesTo [1] S2048
  h_S_ : 0 < S_.numel
  bcast_S2048_S2048x1_0 : S2048.BroadcastsInDim S2048x1 (![0] : Fin 1 → Fin S2048x1.rank)
  transposes_S2048x1_S1x2048_1_0 : S2048x1.Transposes [1, 0] S1x2048
  inb_S1x1x128_S1x1x128_0_0_0 : ∀ a, (![0, 0, 0] : Fin 3 → Nat) a + S1x1x128.size a ≤ S1x1x128.size a
  h_S1x1x128 : 0 < S1x1x128.numel
  inb_S512x128_S512x128_0_0 : ∀ a, (![0, 0] : Fin 2 → Nat) a + S512x128.size a ≤ S512x128.size a
  h_S512x128 : 0 < S512x128.numel
  inb_S2048x128_S2048x128_0_0 : ∀ a, (![0, 0] : Fin 2 → Nat) a + S2048x128.size a ≤ S2048x128.size a
  h_S2048x128 : 0 < S2048x128.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  bitsLt_bf16_f32 : FTy.bits .bf16 < FTy.bits .f32
  reduces_S512x128_S512 : S512x128.Reduces [1] S512
  shapeCasts_S512_S512x1 : S512.ShapeCasts S512x1
  broadcasts_S512x1_S512x2048 : S512x1.Broadcasts S512x2048
  broadcasts_S1x2048_S512x2048 : S1x2048.Broadcasts S512x2048
  inb_S512x1_S512x1_0_0 : ∀ a, (![0, 0] : Fin 2 → Nat) a + S512x1.size a ≤ S512x1.size a
  h_S512x1 : 0 < S512x1.numel
  shapeCasts_S512x1_S512x1 : S512x1.ShapeCasts S512x1
  reduces_S512x2048_S512 : S512x2048.Reduces [1] S512
  iota_S512x2048_d1_w32 : S512x2048.Iotas .tc 32 [1]
  shapeCasts_S512x1_S1x512x1 : S512x1.ShapeCasts S1x512x1
  reduces_S1x512x1_S1 : S1x512x1.Reduces [1, 2] S1
  shapeCasts_S1_S1x1x1 : S1.ShapeCasts S1x1x1
  inpos_S1x1x1_p0_0_0 : ∀ a, (![0, 0, 0] : Fin 3 → Nat) a < S1x1x1.size a
  iota_S1x1x128_d2_w32 : S1x1x128.Iotas .tc 32 [2]
  shapeCasts_S1x1x128_S1x1x128 : S1x1x128.ShapeCasts S1x1x128
  slices_S2x1x128_S2x1x1_0_0_0 : S2x1x128.Slices ![0, 0, 0] S2x1x1
  shapeCasts_S2x1x1_S2 : S2x1x1.ShapeCasts S2
  reducesTo_S2_S_d0 : S2.ReducesTo [0] S_
  dot_S512x128_S2048x128_S512x2048_1_1_0_0_n_n_wf : DotDims.WF S512x128 S2048x128 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S16384x128.size a
  hwx0_0 : ∀ i : grid0.Coords, EltTy.bits .f32 = 32 ∨ (Rect.block (s := S16384x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S2048x128.size a
  hwx0_1 : ∀ i : grid0.Coords, EltTy.bits .f32 = 32 ∨ (Rect.block (s := S2048x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S16384x1.size a
  hwx0_3 : ∀ i : grid0.Coords, EltTy.bits .i32 = 32 ∨ (Rect.block (s := S16384x1) S512x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S2x1x128.size a
  hwx0_4 : ∀ i : grid0.Coords, EltTy.bits .f32 = 32 ∨ (Rect.block (s := S2x1x128) S1x1x128.size (cc0_transform_4 i) (hinb0_4 i)).WholeWords (EltTy.packing .f32)

variable [Facts₀]

def dot_S512x128_S2048x128_S512x2048_1_1_0_0_n_n : DotDims S512x128 S2048x128 S512x2048 where
  lhsContracting := [1]
  rhsContracting := [1]
  lhsNonContracting := [0]
  rhsNonContracting := [0]
  lhsBatch := []
  rhsBatch := []
  wf := dot_S512x128_S2048x128_S512x2048_1_1_0_0_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x128 : Shape := ⟨2, ![16384, 128]⟩
abbrev S2048x128 : Shape := ⟨2, ![2048, 128]⟩
abbrev S16384 : Shape := ⟨1, ![16384]⟩
abbrev S_ : Shape := ⟨0, ![]⟩
abbrev S16384x1 : Shape := ⟨2, ![16384, 1]⟩
abbrev S2048 : Shape := ⟨1, ![2048]⟩
abbrev S128x2048 : Shape := ⟨2, ![128, 2048]⟩
abbrev S16384x2048 : Shape := ⟨2, ![16384, 2048]⟩
abbrev S1x2048 : Shape := ⟨2, ![1, 2048]⟩
abbrev S16384x1x1 : Shape := ⟨3, ![16384, 1, 1]⟩
abbrev S1 : Shape := ⟨1, ![1]⟩
abbrev S1x1x1 : Shape := ⟨3, ![1, 1, 1]⟩

abbrev nBuf : Space → Nat
  | .hbm => 69
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S2048x128, .f32⟩
  | .hbm, ⟨2, _⟩ => ⟨S16384, .i32⟩
  | .hbm, ⟨3, _⟩ => ⟨S16384x128, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S2048x128, .f32⟩
  | .hbm, ⟨8, _⟩ => ⟨S_, .f32⟩
  | .hbm, ⟨9, _⟩ => ⟨S2048, .f32⟩
  | .hbm, ⟨10, _⟩ => ⟨S128x2048, .f32⟩
  | .hbm, ⟨11, _⟩ => ⟨S16384x2048, .f32⟩
  | .hbm, ⟨12, _⟩ => ⟨S1x2048, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S_, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S_, .f32⟩
  | .hbm, ⟨26, _⟩ => ⟨S16384, .f32⟩
  | .hbm, ⟨27, _⟩ => ⟨S_, .f32⟩
  | .hbm, ⟨28, _⟩ => ⟨S16384, .f32⟩
  | .hbm, ⟨29, _⟩ => ⟨S16384, .f32⟩
  | .hbm, ⟨30, _⟩ => ⟨S16384x1, .f32⟩
  | .hbm, ⟨31, _⟩ => ⟨S16384x2048, .f32⟩
  | .hbm, ⟨32, _⟩ => ⟨S16384x2048, .f32⟩
  | .hbm, ⟨33, _⟩ => ⟨S16384x2048, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S16384x1, .f32⟩
  | .hbm, ⟨38, _⟩ => ⟨S16384x2048, .f32⟩
  | .hbm, ⟨39, _⟩ => ⟨S16384x2048, .f32⟩
  | .hbm, ⟨40, _⟩ => ⟨S16384x1, .i32⟩
  | .hbm, ⟨41, _⟩ => ⟨S_, .i32⟩
  | .hbm, ⟨42, _⟩ => ⟨S16384x1, .i32⟩
  | .hbm, ⟨43, _⟩ => ⟨S16384x1, .i1⟩
  | .hbm, ⟨44, _⟩ => ⟨S_, .i32⟩
  | .hbm, ⟨45, _⟩ => ⟨S16384x1, .i32⟩
  | .hbm, ⟨46, _⟩ => ⟨S16384x1, .i32⟩
  | .hbm, ⟨47, _⟩ => ⟨S16384x1, .i32⟩
  | .hbm, ⟨48, _⟩ => ⟨S16384x1x1, .i32⟩
  | .hbm, ⟨49, _⟩ => ⟨S1, .i32⟩
  | .hbm, ⟨50, _⟩ => ⟨S_, .i32⟩
  | .hbm, ⟨51, _⟩ => ⟨S16384x1x1, .i32⟩
  | .hbm, ⟨52, _⟩ => ⟨S16384x1x1, .i1⟩
  | .hbm, ⟨53, _⟩ => ⟨S1x1x1, .i32⟩
  | .hbm, ⟨54, _⟩ => ⟨S16384x1x1, .i32⟩
  | .hbm, ⟨55, _⟩ => ⟨S16384x1x1, .i1⟩
  | .hbm, ⟨56, _⟩ => ⟨S16384x1x1, .i1⟩
  | .hbm, ⟨57, _⟩ => ⟨S_, .i1⟩
  | .hbm, ⟨58, _⟩ => ⟨S16384x1, .i1⟩
  | .hbm, ⟨59, _⟩ => ⟨S16384x1, .f32⟩
  | .hbm, ⟨60, _⟩ => ⟨S_, .f32⟩
  | .hbm, ⟨61, _⟩ => ⟨S16384x1, .f32⟩
  | .hbm, ⟨62, _⟩ => ⟨S16384x1, .f32⟩
  | .hbm, ⟨63, _⟩ => ⟨S16384, .f32⟩
  | .hbm, ⟨64, _⟩ => ⟨S16384, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_cst : Ref sig .tc := ⟨.hbm, 25, rfl⟩
abbrev main_call0_v0 : Ref sig .tc := ⟨.hbm, 26, rfl⟩
abbrev main_call0_cst_0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_cst_1 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_v18 : Ref sig .tc := ⟨.hbm, 39, rfl⟩
abbrev main_v19 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_cst : Ref sig .tc := ⟨.hbm, 60, rfl⟩
abbrev main_call1_v14 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_cst_3 : Ref sig .tc := ⟨.hbm, 65, rfl⟩
abbrev main_v23 : Ref sig .tc := ⟨.hbm, 66, rfl⟩
abbrev main_cst_4 : Ref sig .tc := ⟨.hbm, 67, rfl⟩
abbrev main_v24 : Ref sig .tc := ⟨.hbm, 68, rfl⟩

abbrev nD : Nat := 1
abbrev τ : Topo := Topo.v7x

variable {F : FTy → Type} [FloatOps F]

class Facts₀ : Prop where
  reducesTo_S16384x128_S16384_d1 : S16384x128.ReducesTo [1] S16384
  h_S_ : 0 < S_.numel
  bcast_S16384_S16384x1_0 : S16384.BroadcastsInDim S16384x1 (![0] : Fin 1 → Fin S16384x1.rank)
  reducesTo_S2048x128_S2048_d1 : S2048x128.ReducesTo [1] S2048
  transposes_S2048x128_S128x2048_1_0 : S2048x128.Transposes [1, 0] S128x2048
  bcast_S2048_S1x2048_1 : S2048.BroadcastsInDim S1x2048 (![1] : Fin 1 → Fin S1x2048.rank)
  bcast_S16384x1_S16384x2048_0_1 : S16384x1.BroadcastsInDim S16384x2048 (![0, 1] : Fin 2 → Fin S16384x2048.rank)
  bcast_S1x2048_S16384x2048_0_1 : S1x2048.BroadcastsInDim S16384x2048 (![0, 1] : Fin 2 → Fin S16384x2048.rank)
  bcast_S_S16384x2048 : S_.BroadcastsInDim S16384x2048 (![] : Fin 0 → Fin S16384x2048.rank)
  reducesTo_S16384x2048_S16384_d1 : S16384x2048.ReducesTo [1] S16384
  bcast_S_S16384 : S_.BroadcastsInDim S16384 (![] : Fin 0 → Fin S16384.rank)
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  shapeCasts_S16384x1_S16384 : S16384x1.ShapeCasts S16384
  reducesTo_S16384_S_d0 : S16384.ReducesTo [0] S_
  dot_S16384x128_S128x2048_S16384x2048_1_0_0_1_n_n_wf : DotDims.WF S16384x128 S128x2048 S16384x2048 [1] [0] [0] [1] [] []
  gather_S16384x2048_S16384x1x1_S16384x1_n_1_0_0_1_2_11_wf : GatherDims.WF S16384x2048 S16384x1x1 S16384x1 [] [1] [0] [1] [0] 2 ![1, 1]

variable [Facts₀]

def dot_S16384x128_S128x2048_S16384x2048_1_0_0_1_n_n : DotDims S16384x128 S128x2048 S16384x2048 where
  lhsContracting := [1]
  rhsContracting := [0]
  lhsNonContracting := [0]
  rhsNonContracting := [1]
  lhsBatch := []
  rhsBatch := []
  wf := dot_S16384x128_S128x2048_S16384x2048_1_0_0_1_n_n_wf
def gather_S16384x2048_S16384x1x1_S16384x1_n_1_0_0_1_2_11 : GatherDims S16384x2048 S16384x1x1 S16384x1 where
  offsetDims := []
  collapsedSliceDims := [1]
  operandBatchingDims := [0]
  startIndicesBatchingDims := [0]
  startIndexMap := [1]
  indexVectorDim := 2
  sliceSizes := ![1, 1]
  wf := gather_S16384x2048_S16384x1x1_S16384x1_n_1_0_0_1_2_11_wf

class Facts : Prop extends Facts₀ where

variable [Facts]
-- ==== Proof.KernelPieces.lean ====
/-
  What one run of the kernel body leaves in the accumulator block, as a pure term of the blocks it read.
  At the first tile of a half the body first stores the zero block and then adds the tile's vector to what it reads
  back; at every other tile it adds the tile's vector to what the block held before.
-/
import proofs.«412546_j45981919871001_3_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A tile that is not the first of its half: the block ends as the body's one store, the tile's vector added to what the
    block held (`xo4`). -/
theorem piece_B (c : Dev nD) (i : grid0.Coords) (arg2 : Memref sig .tc .vmem S512x128 .f32) (harg2 : arg2.IsWhole) (arg3 : Memref sig .tc .vmem S2048x128 .f32) (harg3 : arg3.IsWhole) (arg4 : Memref sig .tc .vmem S1x2048 .f32) (harg4 : arg4.IsWhole) (arg5 : Memref sig .tc .vmem S512x1 .i32) (harg5 : arg5.IsWhole) (arg6 : Memref sig .tc .vmem S1x1x128 .f32) (harg6 : arg6.IsWhole) (hc0 : ¬cond0_0 i)
    (x0 : Vec F S512x128 .f32) (x1 : Vec F S2048x128 .f32) (x2 : Vec F S1x2048 .f32) (x3 : Vec F S512x1 .i32) (xo4 : Vec F S1x1x128 .f32) :
    out0_B_4 c i arg2 harg2 arg3 harg3 arg4 harg4 arg5 harg5 arg6 harg6 hc0 x0 x1 x2 x3 xo4
      = k0_pay1 (k0_pay5 x0 x1 x2) (k0_pay6 x0 x1 x2 x3) xo4 := by
  unfold out0_B_4
  rw [View.read_writes_eq_canon _ _ _ (cover0_B_4 c i arg2 harg2 arg3 harg3 arg4 harg4 arg5 harg5 arg6 harg6 hc0 x0 x1 x2 x3 xo4)]
  unfold kernelRun0_B
  dsimp only
  sl_unfold_words
  rw [View.canon_unit_zero hz3]
  simp only [View.readAt_eq_ld, harg2.read_unread, harg3.read_unread, harg4.read_unread, harg5.read_unread, harg6.read_unread,
    View.ld_unit_zero (S := S512x128) hz2, View.ld_unit_zero (S := S2048x128) hz2, View.ld_unit_zero (S := S1x2048) hz2,
    View.ld_unit_zero (S := S512x1) hz2, View.ld_unit_zero (S := S1x1x128) hz3]

/-- The first tile of a half: the zero block is stored first, read back, and the tile's vector added to it. -/
theorem piece_A (c : Dev nD) (i : grid0.Coords) (arg2 : Memref sig .tc .vmem S512x128 .f32) (harg2 : arg2.IsWhole) (arg3 : Memref sig .tc .vmem S2048x128 .f32) (harg3 : arg3.IsWhole) (arg4 : Memref sig .tc .vmem S1x2048 .f32) (harg4 : arg4.IsWhole) (arg5 : Memref sig .tc .vmem S512x1 .i32) (harg5 : arg5.IsWhole) (arg6 : Memref sig .tc .vmem S1x1x128 .f32) (harg6 : arg6.IsWhole) (hc0 : cond0_0 i)
    (x0 : Vec F S512x128 .f32) (x1 : Vec F S2048x128 .f32) (x2 : Vec F S1x2048 .f32) (x3 : Vec F S512x1 .i32) :
    out0_A_4 c i arg2 harg2 arg3 harg3 arg4 harg4 arg5 harg5 arg6 harg6 hc0 x0 x1 x2 x3
      = k0_pay1 (k0_pay5 x0 x1 x2) (k0_pay6 x0 x1 x2 x3) (k0_pay2 (F := F)) := by
  unfold out0_A_4
  rw [View.read_writes_eq_canon _ _ _ (cover0_A_4 c i arg2 harg2 arg3 harg3 arg4 harg4 arg5 harg5 arg6 harg6 hc0 x0 x1 x2 x3)]
  unfold kernelRun0_A
  dsimp only
  sl_unfold_words
  rw [View.canon_cons_unit_zero (S := S1x1x128) hz3, View.readCov_unit_zero (S := S1x1x128) _ hz3]
  simp only [View.readAt_eq_ld, harg2.read_unread, harg3.read_unread, harg4.read_unread, harg5.read_unread,
    View.ld_unit_zero (S := S512x128) hz2, View.ld_unit_zero (S := S2048x128) hz2, View.ld_unit_zero (S := S1x2048) hz2,
    View.ld_unit_zero (S := S512x1) hz2, View.ld_unit_zero (S := S1x1x128) hz3]

end Cert.KernelIdeal.Pieces

end
-- ==== Proof.Spec.lean ====
/-
  The mathematics of the loss, with no program in sight.  A sample is a feature row `x : Fin 128 → EReal`, the class
  means are `μ : Fin 2048 → Fin 128 → EReal`, a label is a class index.  The distance of the sample to class `j` is
  `√(max(‖x‖² + ‖μ j‖² − 2⟨x, μ j⟩, 0))`; the loss of the sample is minus the log-softmax of the NEGATED distances at
  the label; the result is the mean of the 16384 losses.  Two arrangements of this are defined, operation for operation
  as each side computes them, and shown equal where the features and means are real numbers and the label is a class.
-/
import Idealize.ShloMosaic.PureOps.Ideal
import Idealize.ShloMosaic.PureOps.Ideal.Laws
import Mathlib.Algebra.BigOperators.Fin
import Mathlib.Algebra.BigOperators.Intervals

noncomputable section

namespace Cert.Spec

open Idealize.ShloMosaic

/-- The factor −2 folded into the feature row before the product with the means (the f32 word of −2.0). -/
abbrev cm2 : EReal := Ideal.ofBits .f32 0xC0000000#32
/-- The factor 2 on the inner product (the f32 word of 2.0). -/
abbrev c2 : EReal := Ideal.ofBits .f32 0x40000000#32
/-- The number of samples as a float (the f32 word of 16384.0); it divides both sides' sums and is never evaluated. -/
abbrev cN : EReal := Ideal.ofBits .f32 0x46800000#32

/-- The squared norm of class mean `j`, as a host sum from `0`. -/
def sqm (μ : Fin 2048 → Fin 128 → EReal) (j : Fin 2048) : EReal := 0 + ∑ k : Fin 128, μ j k * μ j k

/-! ## The first arrangement: −2 folded into the row, the label matched by a mask, min / log-sum-exp -/

/-- Distance to class `j`: `(‖x‖² + s j) + ⟨−2x, μ j⟩`, clipped at 0, square root. `s` is the table of the means' squared norms. -/
def dK (x : Fin 128 → EReal) (μ : Fin 2048 → Fin 128 → EReal) (s : Fin 2048 → EReal) (j : Fin 2048) : EReal :=
  Ideal.sqrt (max (((∑ k : Fin 128, x k * x k) + s j) + ∑ k : Fin 128, (x k * cm2) * μ j k) 0)

/-- The least distance of the row, as a fold of `min` from `+∞`. -/
def minK (x : Fin 128 → EReal) (μ : Fin 2048 → Fin 128 → EReal) (s : Fin 2048 → EReal) : EReal :=
  (Finset.univ : Finset (Fin 2048)).fold min (⊤ : EReal) (dK x μ s)

/-- The loss of one sample: (the distance at the label, picked by comparing each class number with the label word, minus the
    least distance) plus the log of the sum of `exp (least − distance)`. -/
def rowK (x : Fin 128 → EReal) (μ : Fin 2048 → Fin 128 → EReal) (s : Fin 2048 → EReal) (t : BitVec 32) : EReal :=
  ((∑ j : Fin 2048, if BitVec.ofNat 32 j.val = t then dK x μ s j else 0) - minK x μ s)
    + Ideal.log (∑ j : Fin 2048, Ideal.exp (minK x μ s - dK x μ s j))

/-- What the accumulator of one half of the samples holds after tile `n` (tiles are numbered 0 … 31, sixteen to a half):
    it restarts from `0` at the first tile of a half and adds the tile's partial sum `p n`. -/
def accK (p : ℕ → EReal) : ℕ → EReal
  | 0 => 0 + p 0
  | n + 1 => if (n + 1) % 16 = 0 then 0 + p (n + 1) else accK p n + p (n + 1)

/-- The first arrangement's result from the per-sample losses `ℓ` (indexed by sample number): tile `n` sums samples
    `512 n … 512 n + 511`, each half accumulates its sixteen tiles, the two halves are added from `0`, divided by 16384. -/
def totalK (ℓ : ℕ → EReal) : EReal :=
  Ideal.div (0 + ∑ q : Fin 2, accK (fun n => ∑ r : Fin 512, ℓ (512 * n + r.val)) (16 * q.val + 15)) cN

/-! ## The second arrangement: the textbook one -/

/-- Distance to class `j`: `(‖x‖² + ‖μ j‖²) − 2 ⟨x, μ j⟩` with both norms host sums from 0, clipped at 0, square root. -/
def dR (x : Fin 128 → EReal) (μ : Fin 2048 → Fin 128 → EReal) (j : Fin 2048) : EReal :=
  Ideal.sqrt (max (((0 + ∑ k : Fin 128, x k * x k) + sqm μ j) - c2 * ∑ k : Fin 128, x k * μ j k) 0)

/-- The greatest negated distance: a fold of `max` from `−∞`, then once more `max` with `−∞`. -/
def maxR (x : Fin 128 → EReal) (μ : Fin 2048 → Fin 128 → EReal) : EReal :=
  max (⊥ : EReal) ((Finset.univ : Finset (Fin 2048)).fold max (⊥ : EReal) (fun j => - dR x μ j))

/-- The log-softmax of the negated distances at class `j`. -/
def logpR (x : Fin 128 → EReal) (μ : Fin 2048 → Fin 128 → EReal) (j : Fin 2048) : EReal :=
  ((- dR x μ j) - maxR x μ) - Ideal.log (0 + ∑ j' : Fin 2048, Ideal.exp ((- dR x μ j') - maxR x μ))

/-- The loss of one sample with label `t`. -/
def rowR (x : Fin 128 → EReal) (μ : Fin 2048 → Fin 128 → EReal) (t : Fin 2048) : EReal := - logpR x μ t

/-- The second arrangement's result from the per-sample losses. -/
def totalR (ℓ : Fin 16384 → EReal) : EReal := Ideal.div (0 + ∑ i : Fin 16384, ℓ i) cN

/-! ## The two arrangements agree -/

/-- The word `0xC0000000` is the real number −2. -/
private theorem cm2_eq : Ideal.ofBits .f32 0xC0000000#32 = ((-2 : ℝ) : EReal) := by
  simp [Ideal.ofBits, Ideal.ieee]
  rw [← EReal.coe_mul]
  congr 1
  norm_num

/-- The word `0x40000000` is the real number 2. -/
private theorem c2_eq : Ideal.ofBits .f32 0x40000000#32 = ((2 : ℝ) : EReal) := by
  simp [Ideal.ofBits, Ideal.ieee]
  rw [← EReal.coe_mul]
  congr 1
  norm_num

/-- A finite sum of real numbers, read in the extended reals, is the real sum. -/
private theorem coe_sum {ι : Type} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- Clipping a real number at 0 in the extended reals is the real clipping. -/
private theorem coe_max_zero (a : ℝ) : max (a : EReal) 0 = ((max a 0 : ℝ) : EReal) :=
  (EReal.coe_strictMono.monotone.map_max (a := a) (b := 0)).symm

/-- For real features and means both arrangements' distances are the same nonnegative real numbers. -/
private theorem dists_real (x : Fin 128 → EReal) (μ : Fin 2048 → Fin 128 → EReal)
    (hx : ∀ k, ∃ r : ℝ, x k = (r : EReal)) (hμ : ∀ j k, ∃ r : ℝ, μ j k = (r : EReal)) :
    ∃ D : Fin 2048 → ℝ, (∀ j, 0 ≤ D j) ∧ (∀ j, dK x μ (sqm μ) j = (D j : EReal)) ∧
      (∀ j, dR x μ j = (D j : EReal)) := by
  choose a ha using hx
  choose m hm using hμ
  refine ⟨fun j => Real.sqrt (max (((∑ k, a k * a k) + ∑ k, m j k * m j k) - 2 * ∑ k, a k * m j k) 0),
    fun j => Real.sqrt_nonneg _, fun j => ?_, fun j => ?_⟩
  · have hreal : ((∑ k, a k * a k) + ∑ k, m j k * m j k) + ∑ k, a k * (-2) * m j k
        = ((∑ k, a k * a k) + ∑ k, m j k * m j k) - 2 * ∑ k, a k * m j k := by
      rw [Finset.mul_sum, sub_eq_add_neg, ← Finset.sum_neg_distrib]
      congr 1
      exact Finset.sum_congr rfl fun k _ => by ring
    unfold dK sqm
    simp only [ha, hm, cm2_eq, ← EReal.coe_mul, coe_sum, zero_add, ← EReal.coe_add, coe_max_zero, Ideal.sqrt_coe]
    rw [hreal, if_neg (not_lt.mpr (le_max_right _ _))]
  · unfold dR sqm
    simp only [ha, hm, c2_eq, ← EReal.coe_mul, coe_sum, zero_add, ← EReal.coe_add, ← EReal.coe_sub, coe_max_zero,
      Ideal.sqrt_coe]
    rw [if_neg (not_lt.mpr (le_max_right _ _))]

/-- Negation turns a fold of `min` from `+∞` into a fold of `max` from `−∞`. -/
private theorem fold_max_neg {ι : Type} (s : Finset ι) (d : ι → EReal) :
    s.fold max (⊥ : EReal) (fun j => - d j) = - s.fold min (⊤ : EReal) d := by
  classical
  have hneg : ∀ u v : EReal, -(min u v) = max (-u) (-v) := fun u v => EReal.neg_strictAnti.antitone.map_min
  induction s using Finset.induction_on with
  | empty => simp
  | insert a s ha ih => rw [Finset.fold_insert ha, Finset.fold_insert ha, ih, hneg]

/-- The least of finitely many nonnegative real numbers, one of them present, is a real number. -/
private theorem fold_min_real (D : Fin 2048 → ℝ) (hD : ∀ j, 0 ≤ D j) (t : Fin 2048) :
    ∃ r : ℝ, (Finset.univ : Finset (Fin 2048)).fold min (⊤ : EReal) (fun j => (D j : EReal)) = (r : EReal) := by
  have hle : (Finset.univ : Finset (Fin 2048)).fold min (⊤ : EReal) (fun j => (D j : EReal)) ≤ (D t : EReal) :=
    (Finset.fold_min_le _).mpr (Or.inr ⟨t, Finset.mem_univ t, le_rfl⟩)
  have hge : (0 : EReal) ≤ (Finset.univ : Finset (Fin 2048)).fold min (⊤ : EReal) (fun j => (D j : EReal)) :=
    (Finset.le_fold_min _).mpr ⟨le_top, fun j _ => EReal.coe_nonneg.mpr (hD j)⟩
  have htop : (Finset.univ : Finset (Fin 2048)).fold min (⊤ : EReal) (fun j => (D j : EReal)) ≠ ⊤ :=
    ne_top_of_le_ne_top (EReal.coe_ne_top _) hle
  have hbot : (Finset.univ : Finset (Fin 2048)).fold min (⊤ : EReal) (fun j => (D j : EReal)) ≠ ⊥ :=
    ne_bot_of_le_ne_bot (EReal.coe_ne_bot 0) hge
  exact ⟨_, (EReal.coe_toReal htop hbot).symm⟩

/-- Comparing each class number's 32-bit word with the label's picks out the label's term. -/
private theorem mask_sum (d : Fin 2048 → EReal) (t : Fin 2048) :
    (∑ j : Fin 2048, if BitVec.ofNat 32 j.val = BitVec.ofNat 32 t.val then d j else 0) = d t := by
  have h : ∀ j : Fin 2048, (BitVec.ofNat 32 j.val = BitVec.ofNat 32 t.val) ↔ j = t := by
    intro j
    constructor
    · intro h
      have h2 := congrArg BitVec.toNat h
      simp only [BitVec.toNat_ofNat] at h2
      apply Fin.ext
      have := j.isLt
      have := t.isLt
      omega
    · rintro rfl
      rfl
  simp only [h, Finset.sum_ite_eq', Finset.mem_univ, if_true]

/-- The two losses written over real distances `D`, a real least distance `r`, and any function in place of the logarithm. -/
private theorem row_core (D : Fin 2048 → ℝ) (t : Fin 2048) (r : ℝ) (L : EReal → EReal) :
    ((D t : EReal) - (r : EReal)) + L (∑ j : Fin 2048, Ideal.exp ((r : EReal) - (D j : EReal)))
      = -(((-(D t : EReal)) - (-(r : EReal)))
          - L (0 + ∑ j' : Fin 2048, Ideal.exp ((-(D j' : EReal)) - (-(r : EReal))))) := by
  have hterm : ∀ j, (-(D j : EReal)) - (-(r : EReal)) = (r : EReal) - (D j : EReal) := by
    intro j
    rw [← EReal.coe_neg, ← EReal.coe_neg, ← EReal.coe_sub, ← EReal.coe_sub]
    congr 1
    ring
  simp only [hterm, zero_add]
  generalize L (∑ j : Fin 2048, Ideal.exp ((r : EReal) - (D j : EReal))) = Lv
  rw [← EReal.coe_sub, ← EReal.coe_sub,
    EReal.neg_sub (Or.inl (EReal.coe_ne_bot _)) (Or.inl (EReal.coe_ne_top _)), ← EReal.coe_neg]
  congr 2
  ring

/-- One sample: for real features and means and a label that is a class, the two losses are equal. -/
theorem row_eq (x : Fin 128 → EReal) (μ : Fin 2048 → Fin 128 → EReal) (t : Fin 2048)
    (hx : ∀ k, ∃ r : ℝ, x k = (r : EReal)) (hμ : ∀ j k, ∃ r : ℝ, μ j k = (r : EReal)) :
    rowK x μ (sqm μ) (BitVec.ofNat 32 t.val) = rowR x μ t := by
  obtain ⟨D, hD0, hK, hR⟩ := dists_real x μ hx hμ
  have hK' : dK x μ (sqm μ) = fun j => (D j : EReal) := funext hK
  have hR' : dR x μ = fun j => (D j : EReal) := funext hR
  obtain ⟨r, hr⟩ := fold_min_real D hD0 t
  unfold rowK rowR logpR maxR minK
  simp only [hK', hR']
  rw [mask_sum (fun j => (D j : EReal)) t, max_eq_right bot_le,
    fold_max_neg Finset.univ (fun j => (D j : EReal)), hr]
  exact row_core D t r Ideal.log

/-- At the first tile of a half the accumulator is that tile's partial sum. -/
private theorem accK_restart (p : ℕ → EReal) (n : ℕ) (h : n % 16 = 0) : accK p n = p n := by
  cases n with
  | zero => simp [accK]
  | succ m => rw [accK, if_pos h, zero_add]

/-- Inside a half the accumulator adds the next tile's partial sum. -/
private theorem accK_step (p : ℕ → EReal) (n : ℕ) (h : (n + 1) % 16 ≠ 0) : accK p (n + 1) = accK p n + p (n + 1) := by
  rw [accK, if_neg h]

/-- After tile `s` of half `q` the accumulator holds the sum of the half's first `s + 1` partial sums. -/
private theorem accK_range (p : ℕ → EReal) (q : ℕ) :
    ∀ s, s < 16 → accK p (16 * q + s) = ∑ i ∈ Finset.range (s + 1), p (16 * q + i) := by
  intro s
  induction s with
  | zero =>
    intro _
    rw [accK_restart p (16 * q + 0) (by omega)]
    simp
  | succ s ih =>
    intro hs
    have h1 : 16 * q + (s + 1) = (16 * q + s) + 1 := by omega
    rw [h1, accK_step p (16 * q + s) (by omega), ih (by omega), Finset.sum_range_succ _ (s + 1), h1]

/-- A half's accumulator after its last tile is the sum of its sixteen partial sums. -/
theorem accK_sum (p : ℕ → EReal) (q : ℕ) : accK p (16 * q + 15) = ∑ s : Fin 16, p (16 * q + s.val) := by
  rw [accK_range p q 15 (by omega), Fin.sum_univ_eq_sum_range (fun i => p (16 * q + i)) 16]

/-- A sum over `0 … m n − 1` read in `m` blocks of `n`. -/
private theorem sum_range_mul (f : ℕ → EReal) (m n : ℕ) :
    ∑ i ∈ Finset.range (m * n), f i = ∑ a ∈ Finset.range m, ∑ b ∈ Finset.range n, f (n * a + b) := by
  induction m with
  | zero => simp
  | succ m ih =>
    rw [Nat.succ_mul, Finset.sum_range_add, ih, Finset.sum_range_succ, Nat.mul_comm m n]

/-- The two halves' accumulators together hold the sum of all thirty-two partial sums. -/
private theorem halves_sum (P : ℕ → EReal) :
    ∑ q : Fin 2, accK P (16 * q.val + 15) = ∑ n ∈ Finset.range 32, P n :=
  calc ∑ q : Fin 2, accK P (16 * q.val + 15)
      = ∑ q : Fin 2, ∑ s : Fin 16, P (16 * q.val + s.val) := by simp only [accK_sum]
    _ = ∑ q : Fin 2, ∑ s ∈ Finset.range 16, P (16 * q.val + s) :=
        Finset.sum_congr rfl fun q _ => Fin.sum_univ_eq_sum_range (fun s => P (16 * q.val + s)) 16
    _ = ∑ q ∈ Finset.range 2, ∑ s ∈ Finset.range 16, P (16 * q + s) :=
        Fin.sum_univ_eq_sum_range (fun q => ∑ s ∈ Finset.range 16, P (16 * q + s)) 2
    _ = ∑ n ∈ Finset.range (2 * 16), P n := (sum_range_mul P 2 16).symm
    _ = ∑ n ∈ Finset.range 32, P n := rfl

/-- The whole: tiles, halves and the final sum regroup the one sum over all samples. -/
theorem total_eq (ℓ : ℕ → EReal) : totalK ℓ = totalR (fun i => ℓ i.val) := by
  have key : ∑ q : Fin 2, accK (fun n => ∑ r : Fin 512, ℓ (512 * n + r.val)) (16 * q.val + 15)
      = ∑ i : Fin 16384, ℓ i.val :=
    calc ∑ q : Fin 2, accK (fun n => ∑ r : Fin 512, ℓ (512 * n + r.val)) (16 * q.val + 15)
        = ∑ n ∈ Finset.range 32, ∑ r : Fin 512, ℓ (512 * n + r.val) :=
          halves_sum (fun n => ∑ r : Fin 512, ℓ (512 * n + r.val))
      _ = ∑ n ∈ Finset.range 32, ∑ r ∈ Finset.range 512, ℓ (512 * n + r) :=
          Finset.sum_congr rfl fun n _ => Fin.sum_univ_eq_sum_range (fun r => ℓ (512 * n + r)) 512
      _ = ∑ i ∈ Finset.range (32 * 512), ℓ i := (sum_range_mul ℓ 32 512).symm
      _ = ∑ i ∈ Finset.range 16384, ℓ i := rfl
      _ = ∑ i : Fin 16384, ℓ i.val := (Fin.sum_univ_eq_sum_range ℓ 16384).symm
  unfold totalK totalR
  rw [key]

end Cert.Spec

end
-- ==== Proof.KernelPayload.lean ====
/-
  The kernel body's arithmetic, read at the extended reals.  One tile of 512 samples: from the tile's feature rows `x0`,
  the means `x1`, the row of the means' squared norms `x2` and the column of the tile's labels `x3`, the body adds, in
  lane 0 of the accumulator block, the sum over the tile's samples of the per-sample loss `Spec.rowK`; the other lanes
  receive `0`.  The block a fresh half starts from is all `0`.
-/
import proofs.«412546_j45981919871001_3_alg».proof.Proof.Gen.KernelIdeal.Skeleton
import proofs.«412546_j45981919871001_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

namespace Cert.KernelIdeal.Payload

open Cert.KernelIdeal Cert.KernelIdeal.Gen Idealize.ShloMosaic Idealize.ShloMosaic.ValueIdx

/-- Row `r` of a tile's features. -/
abbrev xrow (x0 : Vec Ideal S512x128 .f32) (r : Fin 512) : Fin 128 → EReal := fun k => x0 (ix2 r k)
/-- The means as a function of class and coordinate. -/
abbrev mus (x1 : Vec Ideal S2048x128 .f32) : Fin 2048 → Fin 128 → EReal := fun j k => x1 (ix2 j k)
/-- The means' squared norms as a function of class. -/
abbrev sqs (x2 : Vec Ideal S1x2048 .f32) : Fin 2048 → EReal := fun j => x2 (ix2 0 j)

/-- The block a half starts from: zero everywhere. -/
theorem reset_apply (y : S1x1x128.Idx) : k0_pay2 (F := Ideal) y = 0 := by
  unfold k0_pay2
  exact Ideal.ofBits_zero_f32

/-! Layout operations of the body read at an index with explicit coordinates. -/

/-- A length-512 vector cast to a 512×1 column reads, at (r, 0), the vector at r. -/
private theorem col_apply {α : Type} (v : S512.Idx → α) (r : Fin 512) :
    shapeCast S512x1 v shapeCasts_S512_S512x1 (ix2 r (0 : Fin 1)) = v (ix1 r) :=
  shapeCast_apply v shapeCasts_S512_S512x1 _ _ (by
    rw [Shape.rowMajor_val_two, Shape.rowMajor_val_one]
    show r.val = r.val * 1 + 0
    omega)

/-- A 512×1 column broadcast over 2048 lanes reads, at (r, j), the column at (r, 0). -/
private theorem bcol_apply {α : Type} (v : S512x1.Idx → α) (r : Fin 512) (j : Fin 2048) :
    broadcastTo S512x2048 v broadcasts_S512x1_S512x2048 (ix2 r j) = v (ix2 r (0 : Fin 1)) := by
  refine broadcastTo_apply v broadcasts_S512x1_S512x2048 (ix2 r j) (ix2 r (0 : Fin 1)) fun ax => ?_
  match ax with
  | ⟨0, _⟩ => rfl
  | ⟨1, _⟩ => rfl

/-- The one row broadcast over 512 rows reads, at (r, j), the row at (0, j). -/
private theorem brow_apply {α : Type} (v : S1x2048.Idx → α) (r : Fin 512) (j : Fin 2048) :
    broadcastTo S512x2048 v broadcasts_S1x2048_S512x2048 (ix2 r j) = v (ix2 (0 : Fin 1) j) :=
  broadcastTo_1b_ab_apply v broadcasts_S1x2048_S512x2048 r j

/-- The sum along the 128 coordinates of a row. -/
private theorem rowsum128 (src : FVec Ideal S512x128 .f32) (hφ : FKind.Formats .f32)
    (hacc : (0x00000000#32 : BitVec 32) = FKind.add.neutral .f32 hφ) (r : Fin 512) :
    multiReduction (F := Ideal) .add [1] S512 src 0x00000000#32 reduces_S512x128_S512 hφ hacc (ix1 r)
      = ∑ k : Fin 128, src (ix2 r k) := by
  refine (Ideal.multiReduction_add_single src _ reduces_S512x128_S512 hφ hacc (ix1 r)).trans ?_
  refine Finset.sum_congr rfl fun k _ => congrArg src ?_
  funext a
  refine Fin.ext ?_
  match a with
  | ⟨0, _⟩ => rfl
  | ⟨1, _⟩ => rfl

/-- The sum along the 2048 lanes of a row. -/
private theorem rowsum2048 (src : FVec Ideal S512x2048 .f32) (hφ : FKind.Formats .f32)
    (hacc : (0x00000000#32 : BitVec 32) = FKind.add.neutral .f32 hφ) (r : Fin 512) :
    multiReduction (F := Ideal) .add [1] S512 src 0x00000000#32 reduces_S512x2048_S512 hφ hacc (ix1 r)
      = ∑ j : Fin 2048, src (ix2 r j) := by
  refine (Ideal.multiReduction_add_single src _ reduces_S512x2048_S512 hφ hacc (ix1 r)).trans ?_
  refine Finset.sum_congr rfl fun k _ => congrArg src ?_
  funext a
  refine Fin.ext ?_
  match a with
  | ⟨0, _⟩ => rfl
  | ⟨1, _⟩ => rfl

/-! The product of the feature rows with the means, contracted over the 128 coordinates of both. -/

private theorem dot_lhs_0 (i : S512x2048.Idx) (q : dot_S512x128_S2048x128_S512x2048_1_1_0_0_n_n.contr.Idx) :
    (dot_S512x128_S2048x128_S512x2048_1_1_0_0_n_n.lhsIdx i q 0).val = (i 0).val := by
  unfold DotDims.lhsIdx
  rw [dif_neg (show ¬(0 : Fin S512x128.rank) ∈ dot_S512x128_S2048x128_S512x2048_1_1_0_0_n_n.lhsBatch by decide),
    dif_pos (show (0 : Fin S512x128.rank) ∈ dot_S512x128_S2048x128_S512x2048_1_1_0_0_n_n.lhsNonContracting by decide)]
  rfl
private theorem dot_lhs_1 (i : S512x2048.Idx) (q : dot_S512x128_S2048x128_S512x2048_1_1_0_0_n_n.contr.Idx) :
    (dot_S512x128_S2048x128_S512x2048_1_1_0_0_n_n.lhsIdx i q 1).val = (q ⟨0, by decide⟩).val :=
  dot_S512x128_S2048x128_S512x2048_1_1_0_0_n_n.lhsIdx_val_of_single rfl i q
private theorem dot_rhs_0 (i : S512x2048.Idx) (q : dot_S512x128_S2048x128_S512x2048_1_1_0_0_n_n.contr.Idx) :
    (dot_S512x128_S2048x128_S512x2048_1_1_0_0_n_n.rhsIdx i q 0).val = (i 1).val := by
  unfold DotDims.rhsIdx
  rw [dif_neg (show ¬(0 : Fin S2048x128.rank) ∈ dot_S512x128_S2048x128_S512x2048_1_1_0_0_n_n.rhsBatch by decide),
    dif_pos (show (0 : Fin S2048x128.rank) ∈ dot_S512x128_S2048x128_S512x2048_1_1_0_0_n_n.rhsNonContracting by decide)]
  rfl
private theorem dot_rhs_1 (i : S512x2048.Idx) (q : dot_S512x128_S2048x128_S512x2048_1_1_0_0_n_n.contr.Idx) :
    (dot_S512x128_S2048x128_S512x2048_1_1_0_0_n_n.rhsIdx i q 1).val = (q ⟨0, by decide⟩).val :=
  dot_S512x128_S2048x128_S512x2048_1_1_0_0_n_n.rhsIdx_val_of_single rfl i q

/-- The product into the zero block, at (r, j): the sum over the coordinate k of row r of the left operand times
    row j of the right operand. -/
private theorem dot_apply (A : FVec Ideal S512x128 .bf16) (B : FVec Ideal S2048x128 .bf16) (r : Fin 512) (j : Fin 2048) :
    matmul (F := Ideal) dot_S512x128_S2048x128_S512x2048_1_1_0_0_n_n none A B (constant S512x2048 .f32 0x00000000#32) (ix2 r j)
      = ∑ k : Fin 128, A (ix2 r k) * B (ix2 j k) := by
  simp only [matmul]
  rw [Ideal.matmul_constant_zero_apply, ← Equiv.sum_comp (contrEquiv1 dot_S512x128_S2048x128_S512x2048_1_1_0_0_n_n 128 rfl rfl).symm]
  refine Finset.sum_congr rfl fun k _ => ?_
  have hk := contrEquiv1_symm_val dot_S512x128_S2048x128_S512x2048_1_1_0_0_n_n 128 rfl rfl k
  have el : dot_S512x128_S2048x128_S512x2048_1_1_0_0_n_n.lhsIdx (ix2 r j) ((contrEquiv1 dot_S512x128_S2048x128_S512x2048_1_1_0_0_n_n 128 rfl rfl).symm k) = ix2 r k :=
    funext fun a => Fin.ext (by
      match a with
      | ⟨0, _⟩ => exact dot_lhs_0 _ _
      | ⟨1, _⟩ => exact (dot_lhs_1 _ _).trans hk)
  have er : dot_S512x128_S2048x128_S512x2048_1_1_0_0_n_n.rhsIdx (ix2 r j) ((contrEquiv1 dot_S512x128_S2048x128_S512x2048_1_1_0_0_n_n 128 rfl rfl).symm k) = ix2 j k :=
    funext fun a => Fin.ext (by
      match a with
      | ⟨0, _⟩ => exact dot_rhs_0 _ _
      | ⟨1, _⟩ => exact (dot_rhs_1 _ _).trans hk)
  rw [el, er]

/-! The unary operations read at an index, at the extended reals (definitional). -/

private theorem exp_apply {s : Shape} {φ : FTy} (a : FVec Ideal s φ) (i : s.Idx) : exp a i = Ideal.exp (a i) := rfl
private theorem log_apply {s : Shape} {φ : FTy} (a : FVec Ideal s φ) (i : s.Idx) : log a i = Ideal.log (a i) := rfl

/-- The squared norm of row r, as the body computes and places it: summed along the row, turned into a column, spread
    over the lanes. -/
private theorem normcol_apply (x0 : Vec Ideal S512x128 .f32) (r : Fin 512) (j : Fin 2048) :
    broadcastTo S512x2048
        (shapeCast S512x1 (multiReduction (F := Ideal) .add [1] S512 (mulf x0 x0) 0x00000000#32 reduces_S512x128_S512 (.inl rfl) rfl)
          shapeCasts_S512_S512x1) broadcasts_S512x1_S512x2048 (ix2 r j)
      = ∑ k : Fin 128, x0 (ix2 r k) * x0 (ix2 r k) :=
  (bcol_apply _ r j).trans ((col_apply _ r).trans (rowsum128 _ _ _ r))

/-- The distance of sample r to class j, as the body computes it. -/
private theorem pay3_apply (x0 : Vec Ideal S512x128 .f32) (x1 : Vec Ideal S2048x128 .f32) (x2 : Vec Ideal S1x2048 .f32)
    (r : Fin 512) (j : Fin 2048) :
    k0_pay3 (F := Ideal) x0 x1 x2 (ix2 r j) = Cert.Spec.dK (xrow x0 r) (mus x1) (sqs x2) j := by
  unfold k0_pay3 Cert.Spec.dK
  refine congrArg Ideal.sqrt ?_
  refine congrArg₂ max ?_ Ideal.ofBits_zero_f32
  refine congrArg₂ (· + ·) (congrArg₂ (· + ·) (normcol_apply x0 r j) ?_) ?_
  · refine (brow_apply _ r j).trans ?_
    rw [shapeCast_self]
  · refine (dot_apply _ _ r j).trans ?_
    rfl

/-- The f32 word of +∞ is the top of the extended reals. -/
private theorem ofBits_inf_f32 : Ideal.ofBits .f32 0x7F800000#32 = ⊤ := by simp [Ideal.ofBits, Ideal.ieee]

/-- The minimum along the 2048 lanes of a row: the fold of `min` from +∞ over the lanes. -/
private theorem rowmin2048 (src : FVec Ideal S512x2048 .f32) (hφ : FKind.Formats .f32)
    (hacc : (0x7F800000#32 : BitVec 32) = FKind.minimumf.neutral .f32 hφ) (r : Fin 512) :
    multiReduction (F := Ideal) .minimumf [1] S512 src 0x7F800000#32 reduces_S512x2048_S512 hφ hacc (ix1 r)
      = (Finset.univ : Finset (Fin 2048)).fold min (⊤ : EReal) (fun j => src (ix2 r j)) := by
  refine (multiReduction_minimumf_eq_fold src _ reduces_S512x2048_S512 hφ hacc (ix1 r)).trans ?_
  refine (reduces_S512x2048_S512.fold_filter_drop_single _ _ src (ix1 r)).trans ?_
  show (Finset.univ : Finset (Fin 2048)).fold min (Ideal.ofBits .f32 0x7F800000#32)
      (src ∘ reduces_S512x2048_S512.lift (ix1 r)) = _
  rw [ofBits_inf_f32]
  refine Finset.fold_congr fun j _ => congrArg src ?_
  funext a
  refine Fin.ext ?_
  match a with
  | ⟨0, _⟩ => rfl
  | ⟨1, _⟩ => rfl

/-- The least distance of sample r, as the body computes it. -/
private theorem pay4_apply (x0 : Vec Ideal S512x128 .f32) (x1 : Vec Ideal S2048x128 .f32) (x2 : Vec Ideal S1x2048 .f32)
    (r : Fin 512) :
    k0_pay4 (F := Ideal) x0 x1 x2 (ix2 r (0 : Fin 1)) = Cert.Spec.minK (xrow x0 r) (mus x1) (sqs x2) := by
  unfold k0_pay4 Cert.Spec.minK
  refine (col_apply _ r).trans ((rowmin2048 _ _ _ r).trans ?_)
  exact Finset.fold_congr fun j _ => pay3_apply x0 x1 x2 r j

/-- The sum over the classes of exp (least distance − distance), for sample r. -/
private theorem pay5_apply (x0 : Vec Ideal S512x128 .f32) (x1 : Vec Ideal S2048x128 .f32) (x2 : Vec Ideal S1x2048 .f32)
    (r : Fin 512) :
    k0_pay5 (F := Ideal) x0 x1 x2 (ix2 r (0 : Fin 1))
      = ∑ j : Fin 2048, Ideal.exp (Cert.Spec.minK (xrow x0 r) (mus x1) (sqs x2) - Cert.Spec.dK (xrow x0 r) (mus x1) (sqs x2) j) := by
  unfold k0_pay5
  refine (col_apply _ r).trans ((rowsum2048 _ _ _ r).trans ?_)
  refine Finset.sum_congr rfl fun j _ => ?_
  refine (exp_apply _ _).trans (congrArg Ideal.exp ?_)
  refine (subf_apply _ _ _).trans ?_
  exact congrArg₂ (· - ·) ((bcol_apply _ r j).trans (pay4_apply x0 x1 x2 r)) (pay3_apply x0 x1 x2 r j)

/-- The class numbers along a row: at lane j, the word of j. -/
private theorem lane_iota_apply (r : Fin 512) (j : Fin 2048) :
    iota .tc S512x2048 32 [1] iota_S512x2048_d1_w32 (ix2 r j) = BitVec.ofNat 32 j.val :=
  iota_single_apply .tc S512x2048 32 1 iota_S512x2048_d1_w32 (ix2 r j)

/-- The distance at the label (picked by comparing each class number with the label word) minus the least distance,
    for sample r. -/
private theorem pay6_apply (x0 : Vec Ideal S512x128 .f32) (x1 : Vec Ideal S2048x128 .f32) (x2 : Vec Ideal S1x2048 .f32)
    (x3 : Vec Ideal S512x1 .i32) (r : Fin 512) :
    k0_pay6 (F := Ideal) x0 x1 x2 x3 (ix2 r (0 : Fin 1))
      = (∑ j : Fin 2048, if BitVec.ofNat 32 j.val = x3 (ix2 r (0 : Fin 1)) then Cert.Spec.dK (xrow x0 r) (mus x1) (sqs x2) j else 0)
        - Cert.Spec.minK (xrow x0 r) (mus x1) (sqs x2) := by
  unfold k0_pay6
  refine (subf_apply _ _ _).trans (congrArg₂ (· - ·) ?_ (pay4_apply x0 x1 x2 r))
  refine (col_apply _ r).trans ((rowsum2048 _ _ _ r).trans ?_)
  refine Finset.sum_congr rfl fun j _ => ?_
  refine (select_apply _ _ _ (ix2 r j)).trans ?_
  have hlab : broadcastTo S512x2048 (shapeCast S512x1 x3 shapeCasts_S512x1_S512x1) broadcasts_S512x1_S512x2048 (ix2 r j)
      = x3 (ix2 r (0 : Fin 1)) := by
    refine (bcol_apply _ r j).trans ?_
    rw [shapeCast_self]
  have hc : cmpi .eq (iota .tc S512x2048 32 [1] iota_S512x2048_d1_w32)
        (broadcastTo S512x2048 (shapeCast S512x1 x3 shapeCasts_S512x1_S512x1) broadcasts_S512x1_S512x2048) (ix2 r j)
      = IntOp.cmpi .eq (BitVec.ofNat 32 j.val) (x3 (ix2 r (0 : Fin 1))) := by
    show IntOp.cmpi .eq _ _ = _
    rw [lane_iota_apply, hlab]
  rw [hc, pay3_apply]
  by_cases h : BitVec.ofNat 32 j.val = x3 (ix2 r (0 : Fin 1))
  · rw [if_pos h, StableHlo.Predicate.cmpi_eq_iff.mpr h, select_one]
  · rw [if_neg h, eq_zero_of_ne_one (fun h1 => h (StableHlo.Predicate.cmpi_eq_iff.mp h1)), select_zero]
    exact Ideal.ofBits_zero_f32

/-! The tile's sum and its placement in lane 0 of the accumulator block. -/

/-- The indices of the 1×512×1 block are the tile's 512 samples. -/
private def tileEquiv : S1x512x1.Idx ≃ Fin 512 where
  toFun i := i 1
  invFun r := ix3 (0 : Fin 1) r (0 : Fin 1)
  left_inv i := by
    funext a
    refine Fin.ext ?_
    match a with
    | ⟨0, _⟩ =>
      have h : (i 0).val < 1 := (i 0).isLt
      show (0 : ℕ) = (i 0).val
      omega
    | ⟨1, _⟩ => rfl
    | ⟨2, _⟩ =>
      have h : (i 2).val < 1 := (i 2).isLt
      show (0 : ℕ) = (i 2).val
      omega
  right_inv _ := rfl

/-- The sum of the 1×512×1 block over its two trailing axes: the sum over the 512 samples. -/
private theorem tilesum_apply (v : FVec Ideal S1x512x1 .f32) (hφ : FKind.Formats .f32)
    (hacc : (0x00000000#32 : BitVec 32) = FKind.add.neutral .f32 hφ) (u : S1.Idx) :
    multiReduction (F := Ideal) .add [1, 2] S1 v 0x00000000#32 reduces_S1x512x1_S1 hφ hacc u
      = ∑ r : Fin 512, v (ix3 (0 : Fin 1) r (0 : Fin 1)) := by
  refine (Ideal.multiReduction_add_total v _ reduces_S1x512x1_S1 (fun b => ?_) hφ hacc u).trans ?_
  · match b with
    | ⟨0, _⟩ => rfl
  · exact (Equiv.sum_comp tileEquiv.symm v).symm

/-- The one element of a length-1 vector, read through its 1×1×1 cast at position (0, 0, 0). -/
private theorem extract_apply {α : Type} (v : S1.Idx → α) :
    extractAt ![0, 0, 0] (shapeCast S1x1x1 v shapeCasts_S1_S1x1x1) inpos_S1x1x1_p0_0_0 = v (ix1 (0 : Fin 1)) := by
  unfold extractAt
  exact shapeCast_apply v shapeCasts_S1_S1x1x1 _ _ (by
    rw [Shape.rowMajor_val_one, Shape.rowMajor_val_three]
    rfl)

/-- Lane 0 of the stored block, for any two columns: what the block held plus the sum over the samples of the second
    column plus the log of the first. -/
private theorem pay1_lane0 (v30 v38 : FVec Ideal S512x1 .f32) (prev : Vec Ideal S1x1x128 .f32) :
    k0_pay1 (F := Ideal) v30 v38 prev (ix3 (0 : Fin 1) (0 : Fin 1) (0 : Fin 128))
      = prev (ix3 (0 : Fin 1) (0 : Fin 1) (0 : Fin 128))
        + ∑ r : Fin 512, (v38 (ix2 r (0 : Fin 1)) + Ideal.log (v30 (ix2 r (0 : Fin 1)))) := by
  unfold k0_pay1
  refine (addf_apply _ _ _).trans (congrArg₂ (· + ·) ?_ ?_)
  · rw [shapeCast_self]
  · refine (select_apply _ _ _ _).trans ?_
    have hc : cmpi .eq (iota .tc S1x1x128 32 [2] iota_S1x1x128_d2_w32) (broadcast S1x1x128 0#32)
        (ix3 (0 : Fin 1) (0 : Fin 1) (0 : Fin 128)) = 1#1 := by
      show IntOp.cmpi .eq (iota .tc S1x1x128 32 [2] iota_S1x1x128_d2_w32 (ix3 (0 : Fin 1) (0 : Fin 1) (0 : Fin 128))) 0#32 = 1#1
      rw [iota_single_apply .tc S1x1x128 32 2 iota_S1x1x128_d2_w32]
      rfl
    rw [hc, select_one]
    refine (broadcast_apply _ _).trans ?_
    refine (extract_apply _).trans ((tilesum_apply _ _ _ _).trans ?_)
    refine Finset.sum_congr rfl fun r _ => ?_
    refine (shapeCast_ab_1ab_apply _ shapeCasts_S512x1_S1x512x1 (0 : Fin 1) r (0 : Fin 1)).trans ?_
    refine (addf_apply _ _ _).trans ?_
    exact congrArg (v38 (ix2 r (0 : Fin 1)) + ·) (log_apply _ _)
/-- Lane 0 of what a tile stores: what the block held there plus the sum of the tile's 512 per-sample losses. -/
theorem tile_lane0 (x0 : Vec Ideal S512x128 .f32) (x1 : Vec Ideal S2048x128 .f32) (x2 : Vec Ideal S1x2048 .f32)
    (x3 : Vec Ideal S512x1 .i32) (prev : Vec Ideal S1x1x128 .f32) :
    k0_pay1 (F := Ideal) (k0_pay5 x0 x1 x2) (k0_pay6 x0 x1 x2 x3) prev (ix3 0 0 0)
      = prev (ix3 0 0 0) + ∑ r : Fin 512, Cert.Spec.rowK (xrow x0 r) (mus x1) (sqs x2) (x3 (ix2 r 0)) := by
  refine (pay1_lane0 _ _ prev).trans ?_
  refine congrArg (prev (ix3 0 0 0) + ·) (Finset.sum_congr rfl fun r _ => ?_)
  rw [pay5_apply, pay6_apply]
  unfold Cert.Spec.rowK
  rfl

end Cert.KernelIdeal.Payload

end
-- ==== Proof.KernelBlocks.lean ====
/-
  Which part of each array a grid point sees.  Point `t` (0 … 31) sees rows `512 t … 512 t + 511` of the features and of
  the label column, the whole table of means and the whole row of their squared norms; its accumulator block is row
  `t / 16` of the [2, 1, 128] output.
-/
import proofs.«412546_j45981919871001_3_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-- The blocks a point sees, each at its literal type. -/
abbrev fblk (c : Dev nD) (t : Fin cfg0.N) : Vec F S512x128 .f32 := iblk m c 0 t
abbrev mblk (c : Dev nD) (t : Fin cfg0.N) : Vec F S2048x128 .f32 := iblk m c 1 t
abbrev sblk (c : Dev nD) (t : Fin cfg0.N) : Vec F S1x2048 .f32 := iblk m c 2 t
abbrev tblk (c : Dev nD) (t : Fin cfg0.N) : Vec F S512x1 .i32 := iblk m c 3 t
/-- The arrays the region finds, each at its literal type: features, means, the row of squared norms, the label column. -/
abbrev farr (c : Dev nD) : Vec F S16384x128 .f32 := V m c main_arg0
abbrev marr (c : Dev nD) : Vec F S2048x128 .f32 := V m c main_arg1
abbrev sarr (c : Dev nD) : Vec F S1x2048 .f32 := V m c main_v5
abbrev tarr (c : Dev nD) : Vec F S16384x1 .i32 := V m c main_v1

/-- The printed index maps over the grid: the feature and label windows move with the point, the table windows stay, the
    output's block is the half the point belongs to. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 3) = t.val / 16 ∧ win0_4.index t (1 : Fin 3) = 0 ∧ win0_4.index t (2 : Fin 3) = 0 :=
  (by decide +kernel : ∀ t : Fin grid0.N, _)

theorem N_eq : cfg0.N = 32 := N_0

/-- Row `r` of point `t`'s feature block is row `512 t + r` of the features. -/
theorem fblk_apply (c : Dev nD) (t : Fin cfg0.N) (r : Fin 512) (k : Fin 128) (h : 512 * t.val + r.val < 16384) :
    fblk m c t (ix2 r k) = farr m c (ix2 ⟨512 * t.val + r.val, h⟩ k) := by
  show V m c main_arg0 (((cfg0.win 0).blk t).view.emb (ix2 r k)) = V m c main_arg0 _
  refine congrArg _ (funext fun a => Fin.ext ?_)
  obtain ⟨e0, e1, -⟩ := idx_facts t
  match a with
  | ⟨0, _⟩ => show win0_0.index t (0 : Fin 2) * 512 + 1 * r.val = 512 * t.val + r.val; omega
  | ⟨1, _⟩ => show win0_0.index t (1 : Fin 2) * 128 + 1 * k.val = k.val; omega

/-- Every point sees the whole table of means. -/
theorem mblk_apply (c : Dev nD) (t : Fin cfg0.N) (j : Fin 2048) (k : Fin 128) :
    mblk m c t (ix2 j k) = marr m c (ix2 j k) := by
  show V m c main_arg1 (((cfg0.win 1).blk t).view.emb (ix2 j k)) = V m c main_arg1 _
  refine congrArg _ (funext fun a => Fin.ext ?_)
  obtain ⟨-, -, e0, e1, -⟩ := idx_facts t
  match a with
  | ⟨0, _⟩ => show win0_1.index t (0 : Fin 2) * 2048 + 1 * j.val = j.val; omega
  | ⟨1, _⟩ => show win0_1.index t (1 : Fin 2) * 128 + 1 * k.val = k.val; omega

/-- Every point sees the whole row of squared norms. -/
theorem sblk_apply (c : Dev nD) (t : Fin cfg0.N) (j : Fin 2048) :
    sblk m c t (ix2 0 j) = sarr m c (ix2 0 j) := by
  show V m c main_v5 (((cfg0.win 2).blk t).view.emb (ix2 0 j)) = V m c main_v5 _
  refine congrArg _ (funext fun a => Fin.ext ?_)
  obtain ⟨-, -, -, -, e0, e1, -⟩ := idx_facts t
  match a with
  | ⟨0, _⟩ => show win0_2.index t (0 : Fin 2) * 1 + 1 * 0 = 0; omega
  | ⟨1, _⟩ => show win0_2.index t (1 : Fin 2) * 2048 + 1 * j.val = j.val; omega

/-- Row `r` of point `t`'s label block is row `512 t + r` of the label column. -/
theorem tblk_apply (c : Dev nD) (t : Fin cfg0.N) (r : Fin 512) (h : 512 * t.val + r.val < 16384) :
    tblk m c t (ix2 r 0) = tarr m c (ix2 ⟨512 * t.val + r.val, h⟩ 0) := by
  show V m c main_v1 (((cfg0.win 3).blk t).view.emb (ix2 r 0)) = V m c main_v1 _
  refine congrArg _ (funext fun a => Fin.ext ?_)
  obtain ⟨-, -, -, -, -, -, e0, e1, -⟩ := idx_facts t
  match a with
  | ⟨0, _⟩ => show win0_3.index t (0 : Fin 2) * 512 + 1 * r.val = 512 * t.val + r.val; omega
  | ⟨1, _⟩ => show win0_3.index t (1 : Fin 2) * 1 + 1 * 0 = 0; omega

end Cert.KernelIdeal.Blocks

end
-- ==== Proof.KernelHostPre.lean ====
/-
  What the host lines before the region leave in the two arrays they compute: the label column is the labels clamped
  into [0, 2047], one per row; the row of squared norms holds, for each class, the sum of the squares of its mean.
-/
import proofs.«412546_j45981919871001_3_alg».proof.Proof.KernelBlocks
import proofs.«412546_j45981919871001_3_alg».proof.Proof.Spec
import Idealize.ShloMosaic.Lib.StableHlo.Run
import Idealize.ShloMosaic.Lib.ValueLayout
import Idealize.ShloMosaic.PureOps.Ideal.Laws

noncomputable section

namespace Cert.KernelIdeal.HostPre

open Cert.KernelIdeal Cert.KernelIdeal.Gen Cert.KernelIdeal.Blocks
open Idealize.ShloMosaic Idealize.ShloMosaic.TcCoe Idealize.SL.Sem Idealize.ShloMosaic.ValueIdx Idealize.ShloMosaic.StableHlo

/-- A label clamped into the classes: `min 2047 (max 0 w)`, signed. -/
def clampW (w : BitVec 32) : BitVec 32 := IntOp.minsi 2047#32 (IntOp.maxsi 0#32 w)

section
variable {F : FTy → Type} [FloatOps F]
variable (m : (ℓ : Loc nD τ sig) → Buf (Elt F) ℓ)

/-- The label column as the host lines compute it from the labels. -/
theorem tarr_eq (c : Dev nD) :
    tarr m c = shapeCast S16384x1 (minsi (broadcastInDim S16384 ![] bcast_S_S16384 (constantI S_ 32 2047#32))
        (maxsi (broadcastInDim S16384 ![] bcast_S_S16384 (constantI S_ 32 0#32)) (m ((c : Thread nD τ).loc main_arg2)))) shapeCasts_S16384_S16384x1 := by
  show V m c main_v1 = _
  dsimp only [Gen.V, Gen.V0]
  simp only [Gen.hostOps0, Gen.hostOps0_1, Gen.hostOps0_2, List.flatten_cons, List.flatten_nil, List.append_nil, List.cons_append, List.nil_append]
  after_results
  simp only [TRef.ofBuf, TRef.toBuf, cast_eq]
  rfl

/-- Row `i` of the label column is label `i`, clamped. -/
theorem tarr_apply (c : Dev nD) (i : Fin 16384) :
    tarr m c (ix2 i 0) = clampW ((m ((c : Thread nD τ).loc main_arg2) : S16384.Idx → BitVec 32) (ix1 i)) := by
  rw [tarr_eq]
  refine (shapeCast_apply _ shapeCasts_S16384_S16384x1 (ix2 i 0) (ix1 i) ?_).trans rfl
  rw [Shape.rowMajor_val_one, Shape.rowMajor_val_two]
  show i.val = i.val * 1 + 0
  omega

/-- The row of squared norms as the host lines compute it from the means. -/
theorem sarr_eq (c : Dev nD) :
    sarr m c = transpose S1x2048 [1, 0] (broadcastInDim S2048x1 ![0] bcast_S2048_S2048x1_0
        (Host.reduceAdd (mulf (m ((c : Thread nD τ).loc main_arg1)) (m ((c : Thread nD τ).loc main_arg1))) (constant (F := F) S_ .f32 0x00000000#32)
          reducesTo_S2048x128_S2048_d1 h_S_)) transposes_S2048x1_S1x2048_1_0 := by
  show V m c main_v5 = _
  dsimp only [Gen.V, Gen.V0]
  simp only [Gen.hostOps0, Gen.hostOps0_1, Gen.hostOps0_2, List.flatten_cons, List.flatten_nil, List.append_nil, List.cons_append, List.nil_append]
  after_results

end

section
variable (m : (ℓ : Loc nD τ sig) → Buf (Elt Ideal) ℓ)

/-- The means the region finds, as a function of class and coordinate. -/
abbrev muOf (c : Dev nD) : Fin 2048 → Fin 128 → EReal := fun j k => (m ((c : Thread nD τ).loc main_arg1) : S2048x128.Idx → EReal) (ix2 j k)

/-- Entry `j` of the row of squared norms is the squared norm of mean `j`. -/
theorem sarr_apply (c : Dev nD) (j : Fin 2048) : sarr m c (ix2 0 j) = Cert.Spec.sqm (muOf m c) j := by
  rw [sarr_eq]
  refine (transpose_ix2_apply _ transposes_S2048x1_S1x2048_1_0 (0 : Fin 1) j).trans ?_
  refine (broadcastInDim_apply _ bcast_S2048_S2048x1_0 _ (ix2 j 0) (ix1 j) (fun a => by match a with | ⟨0, _⟩ => exact (if_neg (show ¬ ((2048 : ℕ) = 1) by decide)).symm)).trans ?_
  simp only [Host.reduceAdd, Ideal.hostReduceAdd_def]
  rw [Ideal.hostReduceAdd_single reducesTo_S2048x128_S2048_d1 (by decide)]
  unfold Cert.Spec.sqm
  refine congrArg₂ (· + ·) Ideal.ofBits_zero_f32 (Finset.sum_congr rfl fun k _ => ?_)
  have e : (Shape.Reduces.lift (by decide : S2048x128.Reduces [1] S2048) (ix1 j) k) = ix2 j k :=
    funext fun a => Fin.ext (by match a with | ⟨0, _⟩ => rfl | ⟨1, _⟩ => rfl)
  rw [ValueIdx.mulf_apply, e]
  rfl

end

end Cert.KernelIdeal.HostPre

end
-- ==== Proof.KernelAccum.lean ====
/-
  Lane 0 of the accumulator block, point by point.  With `loss i` the loss of sample `i` (its feature row, the means, the
  means' squared norms, its clamped label) and `tileSum n` the sum of the losses of samples `512 n … 512 n + 511`, lane 0
  of the block after point `n` is `Spec.accK tileSum n`: `0 + tileSum n` at the first point of a half, what the point before
  left plus `tileSum n` at the others.  By induction on the point.
-/
import proofs.«412546_j45981919871001_3_alg».proof.Proof.KernelPieces
import proofs.«412546_j45981919871001_3_alg».proof.Proof.KernelPayload
import proofs.«412546_j45981919871001_3_alg».proof.Proof.KernelHostPre

noncomputable section

namespace Cert.KernelIdeal.KValue

open Cert.KernelIdeal Cert.KernelIdeal.Gen Cert.KernelIdeal.Blocks Cert.KernelIdeal.HostPre
open Idealize.ShloMosaic Idealize.ShloMosaic.TcCoe Idealize.SL.Sem Idealize.ShloMosaic.ValueIdx

variable (m : (ℓ : Loc nD τ sig) → Buf (Elt Ideal) ℓ)

/-- Sample `i`'s feature row as launched (`0` past the last sample: never read). -/
def feat (c : Dev nD) (i : ℕ) : Fin 128 → EReal := fun k =>
  if h : i < 16384 then (m ((c : Thread nD τ).loc main_arg0) : S16384x128.Idx → EReal) (ix2 ⟨i, h⟩ k) else 0
/-- Sample `i`'s label word as launched. -/
def lab (c : Dev nD) (i : ℕ) : BitVec 32 :=
  if h : i < 16384 then (m ((c : Thread nD τ).loc main_arg2) : S16384.Idx → BitVec 32) (ix1 ⟨i, h⟩) else 0#32
/-- Sample `i`'s loss, in the kernel's arrangement. -/
def loss (c : Dev nD) (i : ℕ) : EReal :=
  Cert.Spec.rowK (feat m c i) (muOf m c) (Cert.Spec.sqm (muOf m c)) (clampW (lab m c i))
/-- The sum of the losses of tile `n`'s 512 samples. -/
def tileSum (c : Dev nD) (n : ℕ) : EReal := ∑ r : Fin 512, loss m c (512 * n + r.val)

/-- The sum a point forms from the blocks it sees is its tile's sum. -/
theorem tile_eq (c : Dev nD) (t : Fin cfg0.N) :
    (∑ r : Fin 512, Cert.Spec.rowK (Payload.xrow (fblk m c t) r) (Payload.mus (mblk m c t)) (Payload.sqs (sblk m c t)) (tblk m c t (ix2 r 0)))
      = tileSum m c t.val := by
  unfold tileSum
  refine Finset.sum_congr rfl fun r _ => ?_
  have hN : t.val < 32 := lt_of_lt_of_eq t.isLt N_0
  have h : 512 * t.val + r.val < 16384 := by have := r.isLt; omega
  have e1 : Payload.xrow (fblk m c t) r = feat m c (512 * t.val + r.val) := funext fun k => by
    show fblk m c t (ix2 r k) = _
    rw [fblk_apply m c t r k h]
    unfold feat
    rw [dif_pos h]
    show V m c main_arg0 _ = _
    rw [V_main_arg0]
  have e2 : Payload.mus (mblk m c t) = muOf m c := funext fun j => funext fun k => by
    show mblk m c t (ix2 j k) = _
    rw [mblk_apply]
    show V m c main_arg1 _ = _
    rw [V_main_arg1]
  have e3 : Payload.sqs (sblk m c t) = Cert.Spec.sqm (muOf m c) := funext fun j => by
    show sblk m c t (ix2 0 j) = _
    rw [sblk_apply, sarr_apply]
  have e4 : tblk m c t (ix2 r 0) = clampW (lab m c (512 * t.val + r.val)) := by
    rw [tblk_apply m c t r h, tarr_apply]
    unfold lab
    rw [dif_pos h]
  unfold loss
  rw [e1, e2, e3, e4]

/-- The first point of a half: lane 0 restarts at `0` and takes the tile's sum. -/
theorem step_A (c : Dev nD) (t : Fin cfg0.N) (h0 : t.val % 16 = 0) :
    outsAt0 m c t.val t.isLt (ix3 0 0 0) = 0 + tileSum m c t.val := by
  rw [outsAt0_A m c t h0]
  refine (congrFun (Pieces.piece_A (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t) (iblk m c 3 t)) (ix3 0 0 0)).trans ?_
  refine (Payload.tile_lane0 (fblk m c t) (mblk m c t) (sblk m c t) (tblk m c t) (k0_pay2 (F := Ideal))).trans ?_
  rw [Payload.reset_apply, tile_eq]

/-- Any other point: lane 0 is what the point before left plus the tile's sum. -/
theorem step_B (c : Dev nD) (t : Fin cfg0.N) (h0 : ¬t.val % 16 = 0) :
    outsAt0 m c t.val t.isLt (ix3 0 0 0)
      = outsAt0 m c (t.val - 1) (Nat.lt_of_le_of_lt (Nat.sub_le _ _) t.isLt) (ix3 0 0 0) + tileSum m c t.val := by
  rw [outsAt0_B m c t h0]
  refine (congrFun (Pieces.piece_B (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) (iblk m c 3 t) (outsAt0 m c (t.val - 1) (Nat.lt_of_le_of_lt (Nat.sub_le _ _) t.isLt))) (ix3 0 0 0)).trans ?_
  refine (Payload.tile_lane0 (fblk m c t) (mblk m c t) (sblk m c t) (tblk m c t) (outsAt0 m c (t.val - 1) (Nat.lt_of_le_of_lt (Nat.sub_le _ _) t.isLt))).trans ?_
  rw [tile_eq]

/-- Lane 0 of the accumulator block after point `n`. -/
theorem outsAt_lane0 (c : Dev nD) : ∀ (n : ℕ) (hn : n < cfg0.N), outsAt0 m c n hn (ix3 0 0 0) = Cert.Spec.accK (tileSum m c) n := by
  intro n
  induction n with
  | zero =>
    intro hn
    exact (step_A m c ⟨0, hn⟩ rfl).trans (by rw [Cert.Spec.accK])
  | succ n ih =>
    intro hn
    by_cases h0 : (n + 1) % 16 = 0
    · refine (step_A m c ⟨n + 1, hn⟩ h0).trans ?_
      rw [Cert.Spec.accK, if_pos h0]
    · refine (step_B m c ⟨n + 1, hn⟩ h0).trans ?_
      rw [Cert.Spec.accK, if_neg h0]
      exact congrArg (· + tileSum m c (n + 1)) (ih (Nat.lt_of_succ_lt hn))

end Cert.KernelIdeal.KValue

end
-- ==== Proof.KernelFinal.lean ====
/-
  The output array after the kernel program's region.  The two flushing points (the last of each half) write their
  accumulator block to row 0 and row 1 of the [2, 1, 128] output, and no other point writes back; so lane 0 of row `q` ends
  at the accumulator of half `q` after its last tile.
-/
import proofs.«412546_j45981919871001_3_alg».proof.Proof.KernelAccum
import Idealize.ShloMosaic.Lib.Pipeline.Value
import Idealize.ShloMosaic.Lib.StableHlo.Run
import Idealize.ShloMosaic.Lib.ValueLayout
import Idealize.ShloMosaic.PureOps.Ideal.Laws

noncomputable section

namespace Cert.KernelIdeal.KValue

open Cert.KernelIdeal Cert.KernelIdeal.Gen Cert.KernelIdeal.Blocks Cert.KernelIdeal.HostPre
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The last point of half `a` is a point of the grid. -/
private theorem last_lt (a : ℕ) (h : a < 2) : 16 * a + 15 < cfg0.N := by
  rw [N_eq]; omega

/-- The block a point leaves depends on the point's number only. -/
private theorem outsAt_congr (c : Dev nD) {n n' : ℕ} (h : n = n') (hn : n < cfg0.N) (hn' : n' < cfg0.N) :
    outsAt0 m c n hn = outsAt0 m c n' hn' := by
  subst h; rfl

/-- What the output array ends holding: row `a` is the block the last point of half `a` leaves. -/
private def finalArr (c : Dev nD) : S2x1x128.Idx → EReal := fun i =>
  outsAt0 m c (16 * (i 0).val + 15) (last_lt _ (i 0).isLt) (ix3 (0 : Fin 1) (0 : Fin 1) (⟨(i 2).val, (i 2).isLt⟩ : Fin 128))

/-- What a flushing point writes back is its block of `finalArr`. -/
private theorem flushed_eq (c : Dev nD) (t : Fin cfg0.N) (hf : t.val % 16 = 15) :
    (dats m 0 c).flushed 4 t = ((cfg0.win 4).blk t).view.read (Elt Ideal) (finalArr m c) := by
  show (cfg0.win 4).cut (grid0.coords t) ((dats m 0 c).after 4 t) = _
  rw [after0_4]
  funext y
  show outsAt0 m c t.val t.isLt _ = finalArr m c (((cfg0.win 4).blk t).view.emb y)
  unfold finalArr
  obtain ⟨-, -, -, -, -, -, -, -, e0, e1, e2⟩ := idx_facts t
  have hN : t.val < 32 := lt_of_lt_of_eq t.isLt N_eq
  have hy0 : (y 0).val < 1 := (y 0).isLt
  have hy1 : (y 1).val < 1 := (y 1).isLt
  have h0 : ((((cfg0.win 4).blk t).view.emb y) 0).val = t.val / 16 := by
    show win0_4.index t (0 : Fin 3) * 1 + 1 * (y 0).val = t.val / 16
    omega
  have h2 : ((((cfg0.win 4).blk t).view.emb y) 2).val = (y 2).val := by
    show win0_4.index t (2 : Fin 3) * 128 + 1 * (y 2).val = (y 2).val
    omega
  have hn : t.val = 16 * ((((cfg0.win 4).blk t).view.emb y) 0).val + 15 := by rw [h0]; omega
  refine (congrFun (outsAt_congr m c hn t.isLt (last_lt _ ((((cfg0.win 4).blk t).view.emb y) 0).isLt)) _).trans (congrArg _ ?_)
  funext a
  refine Fin.ext ?_
  match a with
  | ⟨0, _⟩ => show (y 0).val = 0; omega
  | ⟨1, _⟩ => show (y 1).val = 0; omega
  | ⟨2, _⟩ => show (y 2).val = ((((cfg0.win 4).blk t).view.emb y) 2).val; exact h2.symm

/-- An index of the array is in point `t`'s block iff each coordinate is in the block's range on its axis. -/
private theorem mem_blk (t : Fin cfg0.N) (i : S2x1x128.Idx) :
    i ∈ ((cfg0.win 4).blk t).view.set ↔ ∀ a : Fin 3, win0_4.index t a * S1x1x128.size a ≤ (i a).val
      ∧ (i a).val < win0_4.index t a * S1x1x128.size a + S1x1x128.size a := by
  show i ∈ ((View.whole main_v6).slice (win0_4.rect t)).set ↔ _
  rw [View.set_slice_whole, Rect.mem_set_unit]
  exact Iff.rfl

/-- Every index of the array is in the block of the last point of its row's half. -/
private theorem cover (i : S2x1x128.Idx) : ∃ t : Fin cfg0.N, (cfg0.win 4).flush t = true ∧ i ∈ ((cfg0.win 4).blk t).view.set := by
  have hi0 : (i 0).val < 2 := (i 0).isLt
  have hi1 : (i 1).val < 1 := (i 1).isLt
  have hi2 : (i 2).val < 128 := (i 2).isLt
  obtain ⟨t, ht⟩ : ∃ t : Fin cfg0.N, t.val = 16 * (i 0).val + 15 := ⟨⟨16 * (i 0).val + 15, last_lt _ hi0⟩, rfl⟩
  refine ⟨t, (flush0_4 t).mpr (by omega), ?_⟩
  rw [mem_blk]
  obtain ⟨-, -, -, -, -, -, -, -, e0, e1, e2⟩ := idx_facts t
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1 ≤ (i 1).val ∧ (i 1).val < win0_4.index t (1 : Fin 3) * 1 + 1; omega
  | ⟨2, _⟩ => show win0_4.index t (2 : Fin 3) * 128 ≤ (i 2).val ∧ (i 2).val < win0_4.index t (2 : Fin 3) * 128 + 128; omega

/-- The output array after the run. -/
private theorem final_arr (c : Dev nD) : ((dats m 0 c).arrAt 4 cfg0.N : S2x1x128.Idx → EReal) = finalArr m c :=
  (dats m 0 c).arrAt_eq_of_cover 4 (finalArr m c) (fun t hf => flushed_eq m c t ((flush0_4 t).mp hf)) cover

/-- Lane 0 of row `q` of the output array after the run: the accumulator of half `q` after its last tile. -/
theorem final_lane0 (c : Dev nD) (q : Fin 2) :
    ((dats m 0 c).arrAt 4 cfg0.N : S2x1x128.Idx → EReal) (ix3 q 0 0) = Cert.Spec.accK (tileSum m c) (16 * q.val + 15) := by
  refine (congrFun (final_arr m c) (ix3 q 0 0)).trans ?_
  exact outsAt_lane0 m c (16 * q.val + 15) (last_lt _ q.isLt)

end Cert.KernelIdeal.KValue

end
-- ==== Proof.KernelTail.lean ====
/-
  The host lines after the region, and the kernel program's run with its result named.  Given lane 0 of the two rows of
  the [2, 1, 128] output array after the region (the accumulators of the two halves of the samples), the lines after it take
  those two lanes, add them from 0 and divide by 16384: `Spec.totalK` of the per-sample losses.
-/
import proofs.«412546_j45981919871001_3_alg».proof.Proof.KernelAccum
import Idealize.ShloMosaic.Lib.Pipeline.Value
import Idealize.ShloMosaic.Lib.StableHlo.Run
import Idealize.ShloMosaic.Lib.ValueLayout
import Idealize.ShloMosaic.PureOps.Ideal.Laws

noncomputable section

namespace Cert.KernelIdeal.KTail

open Cert.KernelIdeal Cert.KernelIdeal.Gen Cert.KernelIdeal.Blocks Cert.KernelIdeal.HostPre Cert.KernelIdeal.KValue
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The lines after the region, over any array -/

/-- A vector of two entries added from 0 and divided by the word of 16384.0, at the scalar's one index. -/
private theorem sum_two (Y : S2.Idx → EReal) (x : S_.Idx) :
    Host.divf (F := Ideal) (φ := .f32)
        (Host.reduceAdd (F := Ideal) (φ := .f32) Y (constant (F := Ideal) S_ .f32 0x00000000#32) Facts₀.reducesTo_S2_S_d0 Facts₀.h_S_)
        (constant (F := Ideal) S_ .f32 0x46800000#32) x
      = Ideal.div (0 + ∑ q : Fin 2, Y (ix1 q)) Cert.Spec.cN := by
  have hs : ∑ i : S2.Idx, Y i = ∑ q : Fin 2, Y (ix1 q) :=
    Fintype.sum_equiv (⟨fun j => j 0, ix1, fun j => (eq_ix1 j).symm, fun _ => rfl⟩ : S2.Idx ≃ Fin 2) _ _
      fun j => congrArg Y (eq_ix1 j)
  show FloatOps.hostDivf (Host.reduceAdd (F := Ideal) (φ := .f32) Y (constant (F := Ideal) S_ .f32 0x00000000#32)
      Facts₀.reducesTo_S2_S_d0 Facts₀.h_S_ x) (constant (F := Ideal) S_ .f32 0x46800000#32 x) = _
  simp only [Host.reduceAdd, Ideal.hostReduceAdd_def]
  rw [Ideal.hostReduceAdd_total Facts₀.reducesTo_S2_S_d0 (fun b => b.elim0), Ideal.hostDivf_def, constant_apply, constant_apply,
    Ideal.ofBits_zero_f32, hs]

/-- The slice [0:2, 0:1, 0:1] of a [2, 1, 128] array, reshaped to [2], at `q`: lane 0 of row `q`. -/
private theorem slice_lane0 (A : S2x1x128.Idx → EReal) (q : Fin 2) :
    shapeCast S2 (extractStridedSlice S2x1x1 ![0, 0, 0] A Facts₀.slices_S2x1x128_S2x1x1_0_0_0) Facts₀.shapeCasts_S2x1x1_S2 (ix1 q)
      = A (ix3 q 0 0) := by
  rw [shapeCast_apply _ Facts₀.shapeCasts_S2x1x1_S2 (ix1 q) (ix3 q (0 : Fin 1) (0 : Fin 1)) (by
      rewrite [Shape.rowMajor_val_three, Shape.rowMajor_val_one]
      show (q.val * 1 + 0) * 1 + 0 = q.val
      omega),
    extractStridedSlice_apply ![0, 0, 0] A Facts₀.slices_S2x1x128_S2x1x1_0_0_0 (ix3 q (0 : Fin 1) (0 : Fin 1)) (ix3 q 0 0) (fun a => by
      match a with
      | ⟨0, _⟩ => show q.val = 0 + q.val; omega
      | ⟨1, _⟩ => rfl
      | ⟨2, _⟩ => rfl)]

/-- The six lines after the region over any [2, 1, 128] array: lane 0 of its two rows, added from 0, divided by 16384. -/
private theorem tail_value (A : S2x1x128.Idx → EReal) (x : S_.Idx) :
    Host.divf (F := Ideal) (φ := .f32)
        (Host.reduceAdd (F := Ideal) (φ := .f32)
          (shapeCast S2 (extractStridedSlice S2x1x1 ![0, 0, 0] A Facts₀.slices_S2x1x128_S2x1x1_0_0_0) Facts₀.shapeCasts_S2x1x1_S2)
          (constant (F := Ideal) S_ .f32 0x00000000#32) Facts₀.reducesTo_S2_S_d0 Facts₀.h_S_)
        (constant (F := Ideal) S_ .f32 0x46800000#32) x
      = Ideal.div (0 + ∑ q : Fin 2, A (ix3 q 0 0)) Cert.Spec.cN := by
  rw [sum_two]
  simp only [slice_lane0]

/-! ## The run -/

/-- The lines after the region: lane 0 of the output array's two rows, added from 0 and divided by 16384. -/
private theorem tail_eq (c : Dev nD)
    (hfin : ∀ q : Fin 2,
      ((dats m 0 c).arrAt 4 cfg0.N : S2x1x128.Idx → EReal) (ix3 q 0 0) = Cert.Spec.accK (tileSum m c) (16 * q.val + 15)) :
    Pipeline.afterTail₀ cfgs (dats m) 0 (V0 m) [hostOps1] c main_v10 = (fun _ => Cert.Spec.totalK (loss m c)) := by
  have harr : Pipeline.withArrays (cfgs 0).spec c (V0 m c) (fun w => (dats m 0 c).arrAt w (cfgs 0).N) (Proc.devRef .tc main_v6)
      = (dats m 0 c).arrAt 4 cfg0.N := Pipeline.withArrays_arr spec0 winFacts0.arr_inj c _ _ 4
  unfold Pipeline.afterTail₀
  show StableHlo.after hostOps1 _ (Proc.devRef .tc main_v10) = _
  after_results
  rw [harr]
  funext x
  refine (tail_value ((dats m 0 c).arrAt 4 cfg0.N) x).trans ?_
  simp only [hfin]
  rfl

/-- The run, from what lane 0 of each row of the output array holds after the region: the result buffer ends at the mean
    of the losses in the kernel's arrangement, the arguments unchanged. -/
theorem run_of
    (hfin : ∀ (c : Dev nD) (q : Fin 2),
      ((dats m 0 c).arrAt 4 cfg0.N : S2x1x128.Idx → EReal) (ix3 q 0 0) = Cert.Spec.accK (tileSum m c) (16 * q.val + 15)) :
    θ_run defs (onTc (τ := τ) (main (F := Ideal))) ⟨m, fun _ => 0, ρ⟩ fun r => ∀ c : Dev nD,
      r.2.mem ((c.tc : Thread nD τ).loc main_v10) = (fun _ => Cert.Spec.totalK (loss m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v10 (Pipeline.mem_restRefs_of main_v10 (by decide) (by decide))).trans (tail_eq m c (hfin c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.KTail

end
-- ==== Proof.RefRunStages.lean ====
/-
  The reference program's run: every weakly fair execution of its 66 host operations terminates with the result buffer at
  the last stage's value of the three arguments, the arguments unchanged.  The operations are taken in three stretches —
  the distances, the log-softmax, the pick at the label and the mean — each read over an arbitrary valuation of the
  buffers before it, so that no stretch sees the terms of the one before.
-/
import proofs.«412546_j45981919871001_3_alg».proof.Proof.RefRead
import Idealize.ShloMosaic.Lib.StableHlo.Run

noncomputable section

namespace Cert.ReferenceIdeal.RunStages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## The three stretches of the operation list -/

/-- The first 22 operations: the negated distances. -/
private abbrev opsA : List (HloOp τ sig (Elt F)) :=
  [ binary main_arg0 main_arg0 main_v0 (mulf : (⟨S16384x128, .f32⟩ : BufTy).Contents (Elt F) → (⟨S16384x128, .f32⟩ : BufTy).Contents (Elt F) → (⟨S16384x128, .f32⟩ : BufTy).Contents (Elt F)),
    nullary main_cst (constant S_ .f32 0x00000000#32),
    binary main_v0 main_cst main_v1 ((fun x v => Host.reduceAdd x v reducesTo_S16384x128_S16384_d1 h_S_) : (⟨S16384x128, .f32⟩ : BufTy).Contents (Elt F) → (⟨S_, .f32⟩ : BufTy).Contents (Elt F) → (⟨S16384, .f32⟩ : BufTy).Contents (Elt F)),
    unary main_v1 main_v2 (broadcastInDim S16384x1 ![0] bcast_S16384_S16384x1_0 : (⟨S16384, .f32⟩ : BufTy).Contents (Elt F) → (⟨S16384x1, .f32⟩ : BufTy).Contents (Elt F)),
    binary main_arg1 main_arg1 main_v3 (mulf : (⟨S2048x128, .f32⟩ : BufTy).Contents (Elt F) → (⟨S2048x128, .f32⟩ : BufTy).Contents (Elt F) → (⟨S2048x128, .f32⟩ : BufTy).Contents (Elt F)),
    nullary main_cst_0 (constant S_ .f32 0x00000000#32),
    binary main_v3 main_cst_0 main_v4 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    unary main_arg1 main_v5 ((transpose S128x2048 [1, 0] · transposes_S2048x128_S128x2048_1_0) : (⟨S2048x128, .f32⟩ : BufTy).Contents (Elt F) → (⟨S128x2048, .f32⟩ : BufTy).Contents (Elt F)),
    binary main_arg0 main_v5 main_v6 ((fun l r => Host.dotGeneral dot_S16384x128_S128x2048_S16384x2048_1_0_0_1_n_n none l r) : (⟨S16384x128, .f32⟩ : BufTy).Contents (Elt F) → (⟨S128x2048, .f32⟩ : BufTy).Contents (Elt F) → (⟨S16384x2048, .f32⟩ : BufTy).Contents (Elt F)),
    unary main_v4 main_v7 (broadcastInDim S1x2048 ![1] bcast_S2048_S1x2048_1 : (⟨S2048, .f32⟩ : BufTy).Contents (Elt F) → (⟨S1x2048, .f32⟩ : BufTy).Contents (Elt F)),
    unary main_v2 main_v8 (broadcastInDim S16384x2048 ![0, 1] bcast_S16384x1_S16384x2048_0_1 : (⟨S16384x1, .f32⟩ : BufTy).Contents (Elt F) → (⟨S16384x2048, .f32⟩ : BufTy).Contents (Elt F)),
    unary main_v7 main_v9 (broadcastInDim S16384x2048 ![0, 1] bcast_S1x2048_S16384x2048_0_1 : (⟨S1x2048, .f32⟩ : BufTy).Contents (Elt F) → (⟨S16384x2048, .f32⟩ : BufTy).Contents (Elt F)),
    binary main_v8 main_v9 main_v10 (addf : (⟨S16384x2048, .f32⟩ : BufTy).Contents (Elt F) → (⟨S16384x2048, .f32⟩ : BufTy).Contents (Elt F) → (⟨S16384x2048, .f32⟩ : BufTy).Contents (Elt F)),
    nullary main_cst_1 (constant S_ .f32 0x40000000#32),
    unary main_cst_1 main_v11 (broadcastInDim S16384x2048 ![] bcast_S_S16384x2048 : (⟨S_, .f32⟩ : BufTy).Contents (Elt F) → (⟨S16384x2048, .f32⟩ : BufTy).Contents (Elt F)),
    binary main_v11 main_v6 main_v12 (mulf : (⟨S16384x2048, .f32⟩ : BufTy).Contents (Elt F) → (⟨S16384x2048, .f32⟩ : BufTy).Contents (Elt F) → (⟨S16384x2048, .f32⟩ : BufTy).Contents (Elt F)),
    binary main_v10 main_v12 main_v13 (subf : (⟨S16384x2048, .f32⟩ : BufTy).Contents (Elt F) → (⟨S16384x2048, .f32⟩ : BufTy).Contents (Elt F) → (⟨S16384x2048, .f32⟩ : BufTy).Contents (Elt F)),
    nullary main_cst_2 (constant S_ .f32 0x00000000#32),
    unary main_cst_2 main_v14 (broadcastInDim S16384x2048 ![] bcast_S_S16384x2048 : (⟨S_, .f32⟩ : BufTy).Contents (Elt F) → (⟨S16384x2048, .f32⟩ : BufTy).Contents (Elt F)),
    binary main_v13 main_v14 main_v15 (maximumf : (⟨S16384x2048, .f32⟩ : BufTy).Contents (Elt F) → (⟨S16384x2048, .f32⟩ : BufTy).Contents (Elt F) → (⟨S16384x2048, .f32⟩ : BufTy).Contents (Elt F)),
    unary main_v15 main_v16 (Host.sqrt : (⟨S16384x2048, .f32⟩ : BufTy).Contents (Elt F) → (⟨S16384x2048, .f32⟩ : BufTy).Contents (Elt F)),
    unary main_v16 main_v17 (Host.negf : (⟨S16384x2048, .f32⟩ : BufTy).Contents (Elt F) → (⟨S16384x2048, .f32⟩ : BufTy).Contents (Elt F)) ]

/-- The next 15 operations: the log-softmax of the rows. -/
private abbrev opsB : List (HloOp τ sig (Elt F)) :=
  [ TRef.nullary (TRef.of (T := ⟨S_, .f32⟩) main_call0_cst) (constant S_ .f32 0xFF800000#32),
    TRef.binary (TRef.of (T := ⟨S16384x2048, .f32⟩) main_v17) (TRef.of (T := ⟨S_, .f32⟩) main_call0_cst) (TRef.of (T := ⟨S16384, .f32⟩) main_call0_v0) (fun x v => Host.reduce FloatOps.maximumf x v reducesTo_S16384x2048_S16384_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S16384, .f32⟩) main_call0_v1) (broadcastInDim S16384 ![] bcast_S_S16384),
    TRef.binary (TRef.of (T := ⟨S16384, .f32⟩) main_call0_v1) (TRef.of (T := ⟨S16384, .f32⟩) main_call0_v0) (TRef.of (T := ⟨S16384, .f32⟩) main_call0_v2) maximumf,
    TRef.unary (TRef.of (T := ⟨S16384, .f32⟩) main_call0_v2) (TRef.of (T := ⟨S16384x1, .f32⟩) main_call0_v3) (broadcastInDim S16384x1 ![0] bcast_S16384_S16384x1_0),
    TRef.unary (TRef.of (T := ⟨S16384x1, .f32⟩) main_call0_v3) (TRef.of (T := ⟨S16384x2048, .f32⟩) main_call0_v4) (broadcastInDim S16384x2048 ![0, 1] bcast_S16384x1_S16384x2048_0_1),
    TRef.binary (TRef.of (T := ⟨S16384x2048, .f32⟩) main_v17) (TRef.of (T := ⟨S16384x2048, .f32⟩) main_call0_v4) (TRef.of (T := ⟨S16384x2048, .f32⟩) main_call0_v5) subf,
    TRef.unary (TRef.of (T := ⟨S16384x2048, .f32⟩) main_call0_v5) (TRef.of (T := ⟨S16384x2048, .f32⟩) main_call0_v6) Host.exp,
    TRef.nullary (TRef.of (T := ⟨S_, .f32⟩) main_call0_cst_1) (constant S_ .f32 0x00000000#32),
    TRef.binary (TRef.of (T := ⟨S16384x2048, .f32⟩) main_call0_v6) (TRef.of (T := ⟨S_, .f32⟩) main_call0_cst_1) (TRef.of (T := ⟨S16384, .f32⟩) main_call0_v7) (fun x v => Host.reduceAdd x v reducesTo_S16384x2048_S16384_d1 h_S_),
    TRef.unary (TRef.of (T := ⟨S16384, .f32⟩) main_call0_v7) (TRef.of (T := ⟨S16384x1, .f32⟩) main_call0_v8) (broadcastInDim S16384x1 ![0] bcast_S16384_S16384x1_0),
    TRef.unary (TRef.of (T := ⟨S16384x1, .f32⟩) main_call0_v8) (TRef.of (T := ⟨S16384x1, .f32⟩) main_call0_v9) Host.log,
    TRef.unary (TRef.of (T := ⟨S16384x1, .f32⟩) main_call0_v9) (TRef.of (T := ⟨S16384x2048, .f32⟩) main_call0_v10) (broadcastInDim S16384x2048 ![0, 1] bcast_S16384x1_S16384x2048_0_1),
    TRef.binary (TRef.of (T := ⟨S16384x2048, .f32⟩) main_call0_v5) (TRef.of (T := ⟨S16384x2048, .f32⟩) main_call0_v10) (TRef.of (T := ⟨S16384x2048, .f32⟩) main_v18) subf ]

/-- The last 29 operations: the pick at the label and the mean. -/
private abbrev opsC : List (HloOp τ sig (Elt F)) :=
  [ unary main_arg2 main_v19 (broadcastInDim S16384x1 ![0] bcast_S16384_S16384x1_0 : (⟨S16384, .i32⟩ : BufTy).Contents (Elt F) → (⟨S16384x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S16384x1, .i32⟩) main_call1_v0) (broadcastInDim S16384x1 ![] bcast_S_S16384x1),
    TRef.binary (TRef.of (T := ⟨S16384x1, .i32⟩) main_v19) (TRef.of (T := ⟨S16384x1, .i32⟩) main_call1_v0) (TRef.of (T := ⟨S16384x1, .i1⟩) main_call1_v1) (cmpi .slt),
    TRef.nullary (TRef.of (T := ⟨S_, .i32⟩) main_call1_c_0) (constantI S_ 32 2048#32),
    TRef.unary (TRef.of (T := ⟨S_, .i32⟩) main_call1_c_0) (TRef.of (T := ⟨S16384x1, .i32⟩) main_call1_v2) (broadcastInDim S16384x1 ![] bcast_S_S16384x1),
    TRef.binary (TRef.of (T := ⟨S16384x1, .i32⟩) main_v19) (TRef.of (T := ⟨S16384x1, .i32⟩) main_call1_v2) (TRef.of (T := ⟨S16384x1, .i32⟩) main_call1_v3) addi,
    TRef.ternary (TRef.of (T := ⟨S16384x1, .i1⟩) main_call1_v1) (TRef.of (T := ⟨S16384x1, .i32⟩) main_call1_v3) (TRef.of (T := ⟨S16384x1, .i32⟩) main_v19) (TRef.of (T := ⟨S16384x1, .i32⟩) main_call1_v4) select,
    TRef.reshape (TRef.of (T := ⟨S16384x1, .i32⟩) main_call1_v4) (TRef.of (T := ⟨S16384x1x1, .i32⟩) main_call1_v5) rfl shapeCasts_S16384x1_S16384x1x1,
    TRef.nullary (TRef.of (T := ⟨S1, .i32⟩) main_call1_c_1) (constantI S1 32 2047#32),
    TRef.nullary (TRef.of (T := ⟨S_, .i32⟩) main_call1_c_2) (constantI S_ 32 0#32),
    TRef.unary (TRef.of (T := ⟨S_, .i32⟩) main_call1_c_2) (TRef.of (T := ⟨S16384x1x1, .i32⟩) main_call1_v6) (broadcastInDim S16384x1x1 ![] bcast_S_S16384x1x1),
    TRef.binary (TRef.of (T := ⟨S16384x1x1, .i32⟩) main_call1_v5) (TRef.of (T := ⟨S16384x1x1, .i32⟩) main_call1_v6) (TRef.of (T := ⟨S16384x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S16384x1x1, .i32⟩) main_call1_v9) (broadcastInDim S16384x1x1 ![0, 1, 2] bcast_S1x1x1_S16384x1x1_0_1_2),
    TRef.binary (TRef.of (T := ⟨S16384x1x1, .i32⟩) main_call1_v5) (TRef.of (T := ⟨S16384x1x1, .i32⟩) main_call1_v9) (TRef.of (T := ⟨S16384x1x1, .i1⟩) main_call1_v10) (cmpi .sle),
    TRef.binary (TRef.of (T := ⟨S16384x1x1, .i1⟩) main_call1_v7) (TRef.of (T := ⟨S16384x1x1, .i1⟩) main_call1_v10) (TRef.of (T := ⟨S16384x1x1, .i1⟩) main_call1_v11) andi,
    TRef.nullary (TRef.of (T := ⟨S_, .i1⟩) main_call1_c_3) (constantI S_ 1 1#1),
    TRef.binary (TRef.of (T := ⟨S16384x1x1, .i1⟩) main_call1_v11) (TRef.of (T := ⟨S_, .i1⟩) main_call1_c_3) (TRef.of (T := ⟨S16384x1, .i1⟩) main_call1_v12) (fun x v => Host.reduce IntOp.andi x v reducesTo_S16384x1x1_S16384x1_d2 h_S_),
    TRef.binary (TRef.of (T := ⟨S16384x2048, .f32⟩) main_v18) (TRef.of (T := ⟨S16384x1x1, .i32⟩) main_call1_v5) (TRef.of (T := ⟨S16384x1, .f32⟩) main_call1_v13) (fun x i => Host.gather gather_S16384x2048_S16384x1x1_S16384x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S16384x1, .f32⟩) main_call1_v14) (broadcastInDim S16384x1 ![] bcast_S_S16384x1),
    TRef.ternary (TRef.of (T := ⟨S16384x1, .i1⟩) main_call1_v12) (TRef.of (T := ⟨S16384x1, .f32⟩) main_call1_v13) (TRef.of (T := ⟨S16384x1, .f32⟩) main_call1_v14) (TRef.of (T := ⟨S16384x1, .f32⟩) main_v20) select,
    reshape main_v20 main_v21 rfl shapeCasts_S16384x1_S16384,
    unary main_v21 main_v22 (Host.negf : (⟨S16384, .f32⟩ : BufTy).Contents (Elt F) → (⟨S16384, .f32⟩ : BufTy).Contents (Elt F)),
    nullary main_cst_3 (constant S_ .f32 0x00000000#32),
    binary main_v22 main_cst_3 main_v23 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_4 (constant S_ .f32 0x46800000#32),
    binary main_v23 main_cst_4 main_v24 (Host.divf : (⟨S_, .f32⟩ : BufTy).Contents (Elt F) → (⟨S_, .f32⟩ : BufTy).Contents (Elt F) → (⟨S_, .f32⟩ : BufTy).Contents (Elt F)) ]

set_option maxRecDepth 8192 in
/-- The list is the three stretches in a row. -/
private theorem ops_cut : (ops : List (HloOp τ sig (Elt F))) = opsA ++ (opsB ++ opsC) := rfl

/-- A value carried to an equal type and back is the value. -/
private theorem cast_cast_self {α β : Type} (h₁ : α = β) (h₂ : β = α) (v : α) : cast h₂ (cast h₁ v) = v := by
  subst h₁; rfl

/-! ## What each stretch computes, as a function of what it reads -/

/-- The row maxima of `y`, floored at −∞. -/
private def rowMax (y : (⟨S16384x2048, .f32⟩ : BufTy).Contents (Elt F)) : (⟨S16384, .f32⟩ : BufTy).Contents (Elt F) :=
  maximumf (broadcastInDim S16384 ![] bcast_S_S16384 (constant (F := F) S_ .f32 0xFF800000#32))
    (Host.reduce FloatOps.maximumf y (constant (F := F) S_ .f32 0xFF800000#32) reducesTo_S16384x2048_S16384_d1 h_S_)

/-- `y` with its row maximum taken off each row. -/
private def shifted (y : (⟨S16384x2048, .f32⟩ : BufTy).Contents (Elt F)) : (⟨S16384x2048, .f32⟩ : BufTy).Contents (Elt F) :=
  subf y (broadcastInDim S16384x2048 ![0, 1] bcast_S16384x1_S16384x2048_0_1 (broadcastInDim S16384x1 ![0] bcast_S16384_S16384x1_0 (rowMax y)))

/-- The log-softmax of the rows of `y`: the shifted rows minus the logarithm of the row sums of their exponentials. -/
private def logSoftmax (y : (⟨S16384x2048, .f32⟩ : BufTy).Contents (Elt F)) : (⟨S16384x2048, .f32⟩ : BufTy).Contents (Elt F) :=
  subf (shifted y) (broadcastInDim S16384x2048 ![0, 1] bcast_S16384x1_S16384x2048_0_1
    (Host.log (broadcastInDim S16384x1 ![0] bcast_S16384_S16384x1_0
      (Host.reduceAdd (Host.exp (shifted y)) (constant (F := F) S_ .f32 0x00000000#32) reducesTo_S16384x2048_S16384_d1 h_S_))))

/-- The labels as a column. -/
private def labelCol (x2 : (⟨S16384, .i32⟩ : BufTy).Contents (Elt F)) : (⟨S16384x1, .i32⟩ : BufTy).Contents (Elt F) :=
  broadcastInDim S16384x1 ![0] bcast_S16384_S16384x1_0 x2

/-- The labels with a negative one moved up by 2048 (the wrap of a negative index), as start indices. -/
private def labelIdx (x2 : (⟨S16384, .i32⟩ : BufTy).Contents (Elt F)) : (⟨S16384x1x1, .i32⟩ : BufTy).Contents (Elt F) :=
  shapeCast _ (select (cmpi .slt (labelCol (F := F) x2) (broadcastInDim S16384x1 ![] bcast_S_S16384x1 (constantI S_ 32 0#32)))
      (addi (labelCol (F := F) x2) (broadcastInDim S16384x1 ![] bcast_S_S16384x1 (constantI S_ 32 2048#32))) (labelCol (F := F) x2))
    shapeCasts_S16384x1_S16384x1x1

/-- Whether the wrapped label is in range: 0 ≤ it ≤ 2047. -/
private def labelOk (x2 : (⟨S16384, .i32⟩ : BufTy).Contents (Elt F)) : (⟨S16384x1, .i1⟩ : BufTy).Contents (Elt F) :=
  Host.reduce IntOp.andi
    (andi (cmpi .sge (labelIdx (F := F) x2) (broadcastInDim S16384x1x1 ![] bcast_S_S16384x1x1 (constantI S_ 32 0#32)))
      (cmpi .sle (labelIdx (F := F) x2) (broadcastInDim S16384x1x1 ![0, 1, 2] bcast_S1x1x1_S16384x1x1_0_1_2
        (broadcastInDim S1x1x1 ![2] bcast_S1_S1x1x1_2 (constantI S1 32 2047#32)))))
    (constantI S_ 1 1#1) reducesTo_S16384x1x1_S16384x1_d2 h_S_

/-- The mean over the rows of minus the entry of `z` at the row's label (junk where the label is out of range). -/
private def pickMean (z : (⟨S16384x2048, .f32⟩ : BufTy).Contents (Elt F)) (x2 : (⟨S16384, .i32⟩ : BufTy).Contents (Elt F)) : (⟨S_, .f32⟩ : BufTy).Contents (Elt F) :=
  Host.divf (Host.reduceAdd (Host.negf (shapeCast _
      (select (labelOk (F := F) x2) (Host.gather gather_S16384x2048_S16384x1x1_S16384x1_n_1_0_0_1_2_11 z (labelIdx (F := F) x2))
        (broadcastInDim S16384x1 ![] bcast_S_S16384x1 (constant (F := F) S_ .f32 0x7FC00000#32)))
      shapeCasts_S16384x1_S16384)) (constant (F := F) S_ .f32 0x00000000#32) reducesTo_S16384_S_d0 h_S_)
    (constant (F := F) S_ .f32 0x46800000#32)

/-! ## Each stretch over an arbitrary valuation -/

/-- The first stretch leaves the negated distances of the two float arguments. -/
private theorem after_opsA_v17 (W : Valuation τ sig (Elt F)) :
    after opsA W (Proc.devRef .tc main_v17)
      = val_main_v17 (F := F) (W (Proc.devRef .tc main_arg0)) (W (Proc.devRef .tc main_arg1)) := by
  after_results_simp
  rfl

/-- The first stretch does not write the labels. -/
private theorem after_opsA_arg2 (W : Valuation τ sig (Elt F)) :
    after opsA W (Proc.devRef .tc main_arg2) = W (Proc.devRef .tc main_arg2) := by
  after_results_simp

/-- The second stretch leaves the log-softmax of what it finds at the negated distances' buffer. -/
private theorem after_opsB_v18 (W : Valuation τ sig (Elt F)) :
    after opsB W (Proc.devRef .tc main_v18) = logSoftmax (F := F) (W (Proc.devRef .tc main_v17)) := by
  after_results_simp
  simp only [cast_cast_self]
  rfl

/-- The second stretch does not write the labels. -/
private theorem after_opsB_arg2 (W : Valuation τ sig (Elt F)) :
    after opsB W (Proc.devRef .tc main_arg2) = W (Proc.devRef .tc main_arg2) := by
  after_results_simp

set_option maxRecDepth 65536 in
/-- The third stretch leaves the mean of the picks from what it finds at the log-softmax's buffer and the labels. -/
private theorem after_opsC_v24 (W : Valuation τ sig (Elt F)) :
    after opsC W (Proc.devRef .tc main_v24)
      = pickMean (F := F) (W (Proc.devRef .tc main_v18)) (W (Proc.devRef .tc main_arg2)) := by
  after_results_simp
  simp only [cast_cast_self]
  rfl

/-! ## The stretches joined -/

/-- The log-softmax of the negated distances is the stage of that name. -/
private theorem logSoftmax_v17 (x0 : (⟨S16384x128, .f32⟩ : BufTy).Contents (Elt F)) (x1 : (⟨S2048x128, .f32⟩ : BufTy).Contents (Elt F)) :
    logSoftmax (F := F) (val_main_v17 (F := F) x0 x1) = val_main_v18 (F := F) x0 x1 := rfl

/-- The mean of the picks from the log-softmax stage is the last stage. -/
private theorem pickMean_v18 (x0 : (⟨S16384x128, .f32⟩ : BufTy).Contents (Elt F)) (x1 : (⟨S2048x128, .f32⟩ : BufTy).Contents (Elt F)) (x2 : (⟨S16384, .i32⟩ : BufTy).Contents (Elt F)) :
    pickMean (F := F) (val_main_v18 (F := F) x0 x1) x2 = val_main_v24 (F := F) x0 x1 x2 := rfl

/-- The whole list leaves the last stage of the three arguments at the result buffer. -/
private theorem after_ops_v24 (V : Valuation τ sig (Elt F)) :
    after ops V (Proc.devRef .tc main_v24)
      = val_main_v24 (F := F) (V (Proc.devRef .tc main_arg0)) (V (Proc.devRef .tc main_arg1)) (V (Proc.devRef .tc main_arg2)) := by
  rw [ops_cut, after_append, after_append, after_opsC_v24, after_opsB_v18, after_opsB_arg2, after_opsA_v17, after_opsA_arg2,
    logSoftmax_v17, pickMean_v18]

/-- No operation writes the first argument. -/
private theorem after_ops_arg0 (V : Valuation τ sig (Elt F)) :
    after ops V (Proc.devRef .tc main_arg0) = V (Proc.devRef .tc main_arg0) := by
  after_results_simp

/-- No operation writes the second argument. -/
private theorem after_ops_arg1 (V : Valuation τ sig (Elt F)) :
    after ops V (Proc.devRef .tc main_arg1) = V (Proc.devRef .tc main_arg1) := by
  after_results_simp

/-- No operation writes the labels. -/
private theorem after_ops_arg2 (V : Valuation τ sig (Elt F)) :
    after ops V (Proc.devRef .tc main_arg2) = V (Proc.devRef .tc main_arg2) := by
  after_results_simp

/-! ## The run -/

/-- The run, with the result at the last stage of the three arguments. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24)
          = val_main_v24 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v24).trans (after_ops_v24 (launchContents m c)),
      (h c main_arg0).trans (after_ops_arg0 (launchContents m c)),
      (h c main_arg1).trans (after_ops_arg1 (launchContents m c)),
      (h c main_arg2).trans (after_ops_arg2 (launchContents m c))⟩)
    (run_seq scopedRefs_eq scopedSems_eq defs main (fun _ => ops) main_eq (fun _ => ops_sub) m ρ)

end Cert.ReferenceIdeal.RunStages

end
-- ==== Proof.Labels.lean ====
/-
  A label word as a class index: the word's value, reduced into the 2048 classes.  On a word that is a class number
  it is that class.
-/
import Mathlib.Data.BitVec

namespace Cert.Spec

/-- The class a label word names (its value modulo the number of classes; only words below 2048 occur). -/
def cls (w : BitVec 32) : Fin 2048 := ⟨w.toNat % 2048, Nat.mod_lt _ (by decide)⟩

theorem cls_ofNat (t : Fin 2048) : cls (BitVec.ofNat 32 t.val) = t := by
  apply Fin.ext
  show (BitVec.ofNat 32 t.val).toNat % 2048 = t.val
  rw [BitVec.toNat_ofNat]
  have := t.isLt
  omega

theorem ofNat_cls {w : BitVec 32} (h : ∃ t : Fin 2048, w = BitVec.ofNat 32 t.val) : BitVec.ofNat 32 (cls w).val = w := by
  obtain ⟨t, rfl⟩ := h
  rw [cls_ofNat]

end Cert.Spec
-- ==== Proof.RefValue.lean ====
/-
  The reference's result, read at the extended reals: the mean over the 16384 samples of minus the log-softmax of the
  negated distances at the sample's label, `Spec.totalR` of the per-sample `Spec.rowR` — for labels that are class numbers
  (then the gather's index is in range, the negative-index wrap does nothing and the out-of-range fill is not taken).
-/
import proofs.«412546_j45981919871001_3_alg».proof.Proof.RefRead
import proofs.«412546_j45981919871001_3_alg».proof.Proof.Spec
import proofs.«412546_j45981919871001_3_alg».proof.Proof.Labels
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

namespace Cert.ReferenceIdeal.RefValue

open Cert.ReferenceIdeal Cert.ReferenceIdeal.ReadP Idealize.ShloMosaic Idealize.ShloMosaic.ValueIdx

/-- Sample `i`'s feature row. -/
abbrev xrow (x0 : (⟨S16384x128, .f32⟩ : BufTy).Contents (Elt Ideal)) (i : Fin 16384) : Fin 128 → EReal := fun k => x0 (ix2 i k)
/-- The means as a function of class and coordinate. -/
abbrev mus (x1 : (⟨S2048x128, .f32⟩ : BufTy).Contents (Elt Ideal)) : Fin 2048 → Fin 128 → EReal := fun j k => x1 (ix2 j k)

/-! ## The distances -/

/-- The squared norm of sample `i`'s feature row, as the reference sums it. -/
private theorem v1_eq (x0 : (⟨S16384x128, .f32⟩ : BufTy).Contents (Elt Ideal)) (i : Fin 16384) :
    val_main_v1 (F := Ideal) x0 (ix1 i) = 0 + ∑ k : Fin 128, x0 (ix2 i k) * x0 (ix2 i k) := by
  have hi : ∀ k : Fin 128, idx_main_v1 (ix1 i) k = ix2 i k := fun k =>
    funext fun a => by match a with | ⟨0, _⟩ => rfl | ⟨1, _⟩ => rfl
  rw [val_main_v1_apply, val_main_cst_apply, Ideal.ofBits_def, Ideal.ofBits_zero_f32]
  simp only [val_main_v0_apply, Ideal.mulf_def, hi]

/-- The squared norm of class mean `j`, as the reference sums it. -/
private theorem v4_eq (x1 : (⟨S2048x128, .f32⟩ : BufTy).Contents (Elt Ideal)) (j : Fin 2048) :
    val_main_v4 (F := Ideal) x1 (ix1 j) = Cert.Spec.sqm (mus x1) j := by
  have hi : ∀ k : Fin 128, idx_main_v4 (ix1 j) k = ix2 j k := fun k =>
    funext fun a => by match a with | ⟨0, _⟩ => rfl | ⟨1, _⟩ => rfl
  rw [val_main_v4_apply, val_main_cst_0_apply, Ideal.ofBits_def, Ideal.ofBits_zero_f32]
  simp only [val_main_v3_apply, Ideal.mulf_def, hi]
  rfl

/-- The inner product of sample `i`'s row with class mean `j`. -/
private theorem v6_eq (x0 : (⟨S16384x128, .f32⟩ : BufTy).Contents (Elt Ideal)) (x1 : (⟨S2048x128, .f32⟩ : BufTy).Contents (Elt Ideal))
    (i : Fin 16384) (j : Fin 2048) :
    val_main_v6 (F := Ideal) x0 x1 (ix2 i j) = ∑ k : Fin 128, x0 (ix2 i k) * x1 (ix2 j k) := by
  have hl : ∀ k : Fin 128, lidx_main_v6 (ix2 i j) k = ix2 i k := fun k =>
    funext fun a => by match a with | ⟨0, _⟩ => rfl | ⟨1, _⟩ => rfl
  have hr : ∀ k : Fin 128, idx_main_v5 (ridx_main_v6 (ix2 i j) k) = ix2 j k := fun k =>
    funext fun a => by match a with | ⟨0, _⟩ => rfl | ⟨1, _⟩ => rfl
  rw [val_main_v6_apply]
  simp only [val_main_v5_apply, hl, hr]

/-- The reference's distance of sample `i` to class `j`. -/
private theorem v16_eq (x0 : (⟨S16384x128, .f32⟩ : BufTy).Contents (Elt Ideal)) (x1 : (⟨S2048x128, .f32⟩ : BufTy).Contents (Elt Ideal))
    (i : Fin 16384) (j : Fin 2048) :
    val_main_v16 (F := Ideal) x0 x1 (ix2 i j) = Cert.Spec.dR (xrow x0 i) (mus x1) j := by
  have h8 : idx_main_v2 (idx_main_v8 (ix2 i j)) = ix1 i := funext fun a => by match a with | ⟨0, _⟩ => rfl
  have h9 : idx_main_v7 (idx_main_v9 (ix2 i j)) = ix1 j := funext fun a => by match a with | ⟨0, _⟩ => rfl
  rw [val_main_v16_apply, val_main_v15_apply, val_main_v13_apply, val_main_v10_apply, val_main_v12_apply,
    val_main_v14_apply, val_main_cst_2_apply, val_main_v11_apply, val_main_cst_1_apply,
    val_main_v8_apply, val_main_v2_apply, h8, v1_eq, val_main_v9_apply, val_main_v7_apply, h9, v4_eq, v6_eq]
  simp only [Ideal.mulf_def, Ideal.addf_def, Ideal.subf_def, Ideal.maximumf_def, Ideal.hostUnary_sqrt_def,
    Ideal.ofBits_def, Ideal.ofBits_zero_f32]
  rfl

/-! ## The log-softmax of the negated distances -/

/-- The word `0xFF800000` is −∞. -/
private theorem ninf_eq : Ideal.ofBits .f32 0xFF800000#32 = (⊥ : EReal) := by simp [Ideal.ofBits, Ideal.ieee]

/-- Row `i` with column `k` put back on the reduced axis is (i, k). -/
private theorem lift_row (h : S16384x2048.Reduces [1] S16384) (i : Fin 16384) (k : Fin (S16384x2048.size 1)) :
    h.lift (ix1 i) k = ix2 i (⟨k.val, k.isLt⟩ : Fin 2048) := by
  funext c; apply Fin.ext
  match c with
  | ⟨0, _⟩ => rfl
  | ⟨1, _⟩ => rfl

/-- The reference's row maximum of the negated distances is the fold of `max` from −∞ over the classes. -/
private theorem call0_v0_eq (x0 : (⟨S16384x128, .f32⟩ : BufTy).Contents (Elt Ideal)) (x1 : (⟨S2048x128, .f32⟩ : BufTy).Contents (Elt Ideal))
    (i : Fin 16384) :
    val_main_call0_v0 (F := Ideal) x0 x1 (ix1 i)
      = (Finset.univ : Finset (Fin 2048)).fold max (⊥ : EReal) (fun j => - Cert.Spec.dR (xrow x0 i) (mus x1) j) := by
  have h : S16384x2048.Reduces [1] S16384 := by decide
  unfold val_main_call0_v0
  rw [Host.reduce_eq_fold_single FloatOps.maximumf _ _ Facts₀.reducesTo_S16384x2048_S16384_d1 h Facts₀.h_S_]
  have hf : (val_main_v17 (F := Ideal) x0 x1 ∘ h.lift (ix1 i))
      = fun k : Fin 2048 => - Cert.Spec.dR (xrow x0 i) (mus x1) k := funext fun k => by
    show val_main_v17 (F := Ideal) x0 x1 (h.lift (ix1 i) k) = _
    rw [lift_row h i k, val_main_v17_apply, v16_eq, Ideal.hostNegf_def, Ideal.negf_def]
    rfl
  rw [val_main_call0_cst_apply, Ideal.ofBits_def, ninf_eq]
  exact congrArg (fun f => Finset.fold max (⊥ : EReal) f (Finset.univ : Finset (Fin 2048))) hf

/-- Then once more `max` with −∞: the greatest negated distance of the row. -/
private theorem call0_v2_eq (x0 : (⟨S16384x128, .f32⟩ : BufTy).Contents (Elt Ideal)) (x1 : (⟨S2048x128, .f32⟩ : BufTy).Contents (Elt Ideal))
    (i : Fin 16384) :
    val_main_call0_v2 (F := Ideal) x0 x1 (ix1 i) = Cert.Spec.maxR (xrow x0 i) (mus x1) := by
  rw [val_main_call0_v2_apply, val_main_call0_v1_apply, val_main_call0_cst_0_apply, call0_v0_eq, Ideal.maximumf_def,
    Ideal.ofBits_def, ninf_eq]
  rfl

/-- The shifted negated distance. -/
private theorem call0_v5_eq (x0 : (⟨S16384x128, .f32⟩ : BufTy).Contents (Elt Ideal)) (x1 : (⟨S2048x128, .f32⟩ : BufTy).Contents (Elt Ideal))
    (i : Fin 16384) (j : Fin 2048) :
    val_main_call0_v5 (F := Ideal) x0 x1 (ix2 i j)
      = (- Cert.Spec.dR (xrow x0 i) (mus x1) j) - Cert.Spec.maxR (xrow x0 i) (mus x1) := by
  have h4 : idx_main_call0_v3 (idx_main_call0_v4 (ix2 i j)) = ix1 i := funext fun a => by match a with | ⟨0, _⟩ => rfl
  rw [val_main_call0_v5_apply, val_main_v17_apply, v16_eq, val_main_call0_v4_apply, val_main_call0_v3_apply, h4, call0_v2_eq,
    Ideal.subf_def, Ideal.hostNegf_def, Ideal.negf_def]

/-- The sum of the exponentials of the row's shifted negated distances, from 0. -/
private theorem call0_v7_eq (x0 : (⟨S16384x128, .f32⟩ : BufTy).Contents (Elt Ideal)) (x1 : (⟨S2048x128, .f32⟩ : BufTy).Contents (Elt Ideal))
    (i : Fin 16384) :
    val_main_call0_v7 (F := Ideal) x0 x1 (ix1 i)
      = 0 + ∑ j' : Fin 2048, Ideal.exp ((- Cert.Spec.dR (xrow x0 i) (mus x1) j') - Cert.Spec.maxR (xrow x0 i) (mus x1)) := by
  have hi : ∀ k : Fin 2048, idx_main_call0_v7 (ix1 i) k = ix2 i k := fun k =>
    funext fun a => by match a with | ⟨0, _⟩ => rfl | ⟨1, _⟩ => rfl
  rw [val_main_call0_v7_apply, val_main_call0_cst_1_apply, Ideal.ofBits_def, Ideal.ofBits_zero_f32]
  simp only [val_main_call0_v6_apply, hi, call0_v5_eq, Ideal.hostUnary_exp_def]

/-- The reference's log-softmax of the negated distances at (i, j). -/
private theorem v18_eq (x0 : (⟨S16384x128, .f32⟩ : BufTy).Contents (Elt Ideal)) (x1 : (⟨S2048x128, .f32⟩ : BufTy).Contents (Elt Ideal))
    (i : Fin 16384) (j : Fin 2048) :
    val_main_v18 (F := Ideal) x0 x1 (ix2 i j) = Cert.Spec.logpR (xrow x0 i) (mus x1) j := by
  have h10 : idx_main_call0_v8 (idx_main_call0_v10 (ix2 i j)) = ix1 i := funext fun a => by match a with | ⟨0, _⟩ => rfl
  rw [val_main_v18_apply, call0_v5_eq, val_main_call0_v10_apply, val_main_call0_v9_apply, val_main_call0_v8_apply, h10,
    call0_v7_eq, Ideal.subf_def, Ideal.hostUnary_log_def]
  rfl

/-! ## The label side: a label word that is a class number -/

private theorem label_toNat (t : Fin 2048) : (BitVec.ofNat 32 t.val).toNat = t.val := by
  rw [BitVec.toNat_ofNat]
  have := t.isLt
  omega

private theorem label_small (t : Fin 2048) : (BitVec.ofNat 32 t.val).toNat < 2 ^ 31 := by
  rw [label_toNat]
  have := t.isLt
  omega

/-- A class number is not negative. -/
private theorem label_slt_zero (t : Fin 2048) : IntOp.cmpi .slt (BitVec.ofNat 32 t.val) 0#32 = 0#1 := by
  apply eq_zero_of_ne_one
  intro h
  have h2 := (StableHlo.Predicate.slt_iff_toNat (label_small t) (by decide)).mp h
  exact Nat.not_lt_zero _ h2

private theorem label_sge_zero (t : Fin 2048) : IntOp.cmpi .sge (BitVec.ofNat 32 t.val) 0#32 = 1#1 :=
  (StableHlo.Predicate.sge_iff_toNat (label_small t) (by decide)).mpr (Nat.zero_le _)

private theorem label_sle_last (t : Fin 2048) : IntOp.cmpi .sle (BitVec.ofNat 32 t.val) 2047#32 = 1#1 := by
  refine (StableHlo.Predicate.sle_iff_toNat (label_small t) (by decide)).mpr ?_
  rw [label_toNat]
  show t.val ≤ 2047
  have := t.isLt
  omega

/-- The negative-index wrap leaves a class number as it is. -/
private theorem call1_v4_eq (x2 : (⟨S16384, .i32⟩ : BufTy).Contents (Elt Ideal)) (i : Fin 16384) (t : Fin 2048)
    (hw : x2 (ix1 i) = BitVec.ofNat 32 t.val) :
    val_main_call1_v4 (F := Ideal) x2 (ix2 i (0 : Fin 1)) = BitVec.ofNat 32 t.val := by
  have h19 : idx_main_v19 (ix2 i (0 : Fin 1)) = ix1 i := funext fun a => by match a with | ⟨0, _⟩ => rfl
  rw [val_main_call1_v4_apply, val_main_call1_v1_apply, val_main_v19_apply, h19, hw, val_main_call1_v0_apply,
    val_main_call1_c_apply, label_slt_zero, select_zero]

/-- The start index of sample `i`'s gather is its label. -/
private theorem call1_v5_eq (x2 : (⟨S16384, .i32⟩ : BufTy).Contents (Elt Ideal)) (i : Fin 16384) (t : Fin 2048)
    (hw : x2 (ix1 i) = BitVec.ofNat 32 t.val) :
    val_main_call1_v5 (F := Ideal) x2 (ix3 i (0 : Fin 1) (0 : Fin 1)) = BitVec.ofNat 32 t.val := by
  have h5 : idx_main_call1_v5 (ix3 i (0 : Fin 1) (0 : Fin 1)) = ix2 i (0 : Fin 1) := funext fun a => by
    match a with
    | ⟨0, _⟩ => exact Fin.ext (by show ((i.val * 1 + 0) * 1 + 0) / 1 = i.val; omega)
    | ⟨1, _⟩ => rfl
  rw [val_main_call1_v5_apply, h5, call1_v4_eq x2 i t hw]

/-- A fold over a one-element index range is one application of the operation. -/
private theorem fold_fin_one {β : Type} (op : β → β → β) [Std.Commutative op] [Std.Associative op] (b : β) (f : Fin 1 → β) :
    (Finset.univ : Finset (Fin 1)).fold op b f = op (f 0) b := by
  rw [Finset.univ_unique, Finset.fold_singleton]
  rfl

/-- The in-range mask is true at a class number. -/
private theorem call1_v12_eq (x2 : (⟨S16384, .i32⟩ : BufTy).Contents (Elt Ideal)) (i : Fin 16384) (t : Fin 2048)
    (hw : x2 (ix1 i) = BitVec.ofNat 32 t.val) :
    val_main_call1_v12 (F := Ideal) x2 (ix2 i (0 : Fin 1)) = 1#1 := by
  have h : S16384x1x1.Reduces [2] S16384x1 := by decide
  have hl : h.lift (ix2 i (0 : Fin 1)) (0 : Fin 1) = ix3 i (0 : Fin 1) (0 : Fin 1) := by
    funext c; apply Fin.ext
    match c with
    | ⟨0, _⟩ => rfl
    | ⟨1, _⟩ => rfl
    | ⟨2, _⟩ => rfl
  unfold val_main_call1_v12
  rw [Host.reduce_eq_fold_single IntOp.andi _ _ Facts₀.reducesTo_S16384x1x1_S16384x1_d2 h Facts₀.h_S_]
  refine (fold_fin_one IntOp.andi _ _).trans ?_
  show IntOp.andi (val_main_call1_v11 (F := Ideal) x2 (h.lift (ix2 i (0 : Fin 1)) (0 : Fin 1))) _ = 1#1
  rw [hl, val_main_call1_v11_apply, val_main_call1_v7_apply, val_main_call1_v10_apply, call1_v5_eq x2 i t hw,
    val_main_call1_v6_apply, val_main_call1_c_2_apply, val_main_call1_v9_apply, val_main_call1_v8_apply,
    val_main_call1_c_1_apply, label_sge_zero, label_sle_last, val_main_call1_c_3_apply]
  decide

/-- THE GATHER READ AT (i, 0): with the start index at (i, 0, 0) a class number `t`, the operand at (i, t). Axis 0 of the
    operand is a batching axis (it takes the result's row), axis 1 is collapsed and carries the start index, clamped
    into 0 … 2047, which a class number already is. -/
private theorem gather_row {α : Type} (x : S16384x2048.Idx → α) (idx : IVec S16384x1x1 32) (i : Fin 16384) (t : Fin 2048)
    (hidx : idx (ix3 i (0 : Fin 1) (0 : Fin 1)) = BitVec.ofNat 32 t.val) :
    Host.gather gather_S16384x2048_S16384x1x1_S16384x1_n_1_0_0_1_2_11 x idx (ix2 i (0 : Fin 1)) = x (ix2 i t) := by
  unfold Host.gather
  congr 1
  funext a
  apply Fin.ext
  match a with
  | ⟨0, _⟩ =>
    show gather_S16384x2048_S16384x1x1_S16384x1_n_1_0_0_1_2_11.start (ix2 i (0 : Fin 1)) idx 0 + gather_S16384x2048_S16384x1x1_S16384x1_n_1_0_0_1_2_11.batchCoord (ix2 i (0 : Fin 1)) 0
        + gather_S16384x2048_S16384x1x1_S16384x1_n_1_0_0_1_2_11.offCoord (ix2 i (0 : Fin 1)) 0 = i.val
    rw [GatherDims.start_batching _ _ idx 0 (List.mem_singleton.mpr rfl),
      GatherDims.offCoord_eq_zero _ _ 0 (fun hk => ((GatherDims.mem_sKept _ 0).mp hk).2 (List.mem_singleton.mpr rfl))]
    unfold GatherDims.batchCoord
    rw [dif_pos (show (0 : Fin S16384x2048.rank) ∈ gather_S16384x2048_S16384x1x1_S16384x1_n_1_0_0_1_2_11.operandBatchingDims from List.mem_singleton.mpr rfl),
      Nat.zero_add, Nat.add_zero]
    rfl
  | ⟨1, _⟩ =>
    show gather_S16384x2048_S16384x1x1_S16384x1_n_1_0_0_1_2_11.start (ix2 i (0 : Fin 1)) idx 1 + gather_S16384x2048_S16384x1x1_S16384x1_n_1_0_0_1_2_11.batchCoord (ix2 i (0 : Fin 1)) 1
        + gather_S16384x2048_S16384x1x1_S16384x1_n_1_0_0_1_2_11.offCoord (ix2 i (0 : Fin 1)) 1 = t.val
    rw [GatherDims.batchCoord_eq_zero _ _ 1 (by decide),
      GatherDims.offCoord_eq_zero _ _ 1 (fun hk => ((GatherDims.mem_sKept _ 1).mp hk).1 (List.mem_singleton.mpr rfl))]
    unfold GatherDims.start
    rw [dif_pos (show (1 : Fin S16384x2048.rank) ∈ gather_S16384x2048_S16384x1x1_S16384x1_n_1_0_0_1_2_11.startIndexMap from List.mem_singleton.mpr rfl)]
    have hsi : gather_S16384x2048_S16384x1x1_S16384x1_n_1_0_0_1_2_11.siIdx (ix2 i (0 : Fin 1))
        ⟨List.idxOf (1 : Fin 2) gather_S16384x2048_S16384x1x1_S16384x1_n_1_0_0_1_2_11.startIndexMap, List.idxOf_lt_length_iff.2 (List.mem_singleton.mpr rfl)⟩
          = ix3 i (0 : Fin 1) (0 : Fin 1) := by
      funext b; refine Fin.ext ?_
      match b with
      | ⟨0, _⟩ => rfl
      | ⟨1, _⟩ => rfl
      | ⟨2, _⟩ => rfl
    rw [hsi, hidx, StableHlo.Predicate.toInt_ofNat_small t.val (by have := t.isLt; omega)]
    show min (t.val : ℤ).toNat (2048 - 1) + 0 + 0 = t.val
    have := t.isLt
    simp only [Int.toNat_natCast, Nat.add_zero]
    omega

/-- The gather of the log-softmax at sample `i`'s label. -/
private theorem call1_v13_eq (x0 : (⟨S16384x128, .f32⟩ : BufTy).Contents (Elt Ideal)) (x1 : (⟨S2048x128, .f32⟩ : BufTy).Contents (Elt Ideal))
    (x2 : (⟨S16384, .i32⟩ : BufTy).Contents (Elt Ideal)) (i : Fin 16384) (t : Fin 2048)
    (hw : x2 (ix1 i) = BitVec.ofNat 32 t.val) :
    val_main_call1_v13 (F := Ideal) x0 x1 x2 (ix2 i (0 : Fin 1)) = Cert.Spec.logpR (xrow x0 i) (mus x1) t := by
  unfold val_main_call1_v13
  rw [gather_row _ _ i t (call1_v5_eq x2 i t hw), v18_eq]

/-! ## The per-sample loss and the mean -/

/-- Sample `i`'s loss as the reference computes it. -/
private theorem v22_eq (x0 : (⟨S16384x128, .f32⟩ : BufTy).Contents (Elt Ideal)) (x1 : (⟨S2048x128, .f32⟩ : BufTy).Contents (Elt Ideal))
    (x2 : (⟨S16384, .i32⟩ : BufTy).Contents (Elt Ideal)) (i : Fin 16384) (t : Fin 2048)
    (hw : x2 (ix1 i) = BitVec.ofNat 32 t.val) :
    val_main_v22 (F := Ideal) x0 x1 x2 (ix1 i) = Cert.Spec.rowR (xrow x0 i) (mus x1) t := by
  have h21 : idx_main_v21 (ix1 i) = ix2 i (0 : Fin 1) := funext fun a => by
    match a with
    | ⟨0, _⟩ => exact Fin.ext (Nat.div_one _)
    | ⟨1, _⟩ => rfl
  rw [val_main_v22_apply, val_main_v21_apply, h21, val_main_v20_apply, call1_v12_eq x2 i t hw, select_one,
    call1_v13_eq x0 x1 x2 i t hw, Ideal.hostNegf_def, Ideal.negf_def]
  rfl

/-- The last stage of the reference, at its one index, is the mean of the per-sample losses. -/
theorem result_eq (x0 : (⟨S16384x128, .f32⟩ : BufTy).Contents (Elt Ideal)) (x1 : (⟨S2048x128, .f32⟩ : BufTy).Contents (Elt Ideal))
    (x2 : (⟨S16384, .i32⟩ : BufTy).Contents (Elt Ideal))
    (ht : ∀ i : Fin 16384, ∃ t : Fin 2048, x2 (ix1 i) = BitVec.ofNat 32 t.val) :
    val_main_v24 (F := Ideal) x0 x1 x2
      = fun _ => Cert.Spec.totalR (fun i => Cert.Spec.rowR (xrow x0 i) (mus x1) (Cert.Spec.cls (x2 (ix1 i)))) := by
  have hrow : ∀ i : Fin 16384, val_main_v22 (F := Ideal) x0 x1 x2 (ix1 i)
      = Cert.Spec.rowR (xrow x0 i) (mus x1) (Cert.Spec.cls (x2 (ix1 i))) := by
    intro i
    obtain ⟨t, hw⟩ := ht i
    rw [hw, Cert.Spec.cls_ofNat]
    exact v22_eq x0 x1 x2 i t hw
  have hsum : ∑ j : S16384.Idx, val_main_v22 (F := Ideal) x0 x1 x2 j
      = ∑ i : Fin 16384, Cert.Spec.rowR (xrow x0 i) (mus x1) (Cert.Spec.cls (x2 (ix1 i))) :=
    Fintype.sum_equiv (⟨fun j => j 0, ix1, fun j => (eq_ix1 j).symm, fun _ => rfl⟩ : S16384.Idx ≃ Fin 16384) _ _
      fun j => by rw [eq_ix1 j]; exact hrow (j 0)
  funext q
  rw [val_main_v24_apply, val_main_v23_apply, hsum, val_main_cst_3_apply, val_main_cst_4_apply, Ideal.hostDivf_def,
    Ideal.ofBits_def, Ideal.ofBits_def, Ideal.ofBits_zero_f32]
  rfl

end Cert.ReferenceIdeal.RefValue

end
-- ==== Proof.PreDecode.lean ====
/-
  What the precondition says of the three inputs: every feature and every mean coordinate is a real number (its absolute
  value is below +∞), and every label is a class number (0 ≤ label < 2048 as a signed word).
-/
import proofs.«412546_j45981919871001_3_alg».proof.Pre_finite_inputs
import Idealize.ShloMosaic.PureOps.Ideal
import Idealize.ShloMosaic.Lib.ReduceAll
import Idealize.ShloMosaic.Lib.ValueIdx
import Idealize.ShloMosaic.Lib.StableHlo.Predicate

noncomputable section

namespace Cert.PreDecode

open Idealize.ShloMosaic Cert.Pre_finite_inputs

variable [Cert.Pre_finite_inputs.Facts]

/-- An extended real whose absolute value max x (−x) is strictly below +∞ is neither +∞ nor −∞, hence a real number. -/
private theorem real_of_abs_lt_top (x : EReal) (h : Ideal.cmp .olt (max x (-x)) ⊤ = 1#1) :
    ∃ r : ℝ, x = (r : EReal) := by
  unfold Ideal.cmp at h
  have hlt : max x (-x) < ⊤ := by
    simpa [StableHlo.Predicate.ofBool_eq_one_iff] using h
  rw [max_lt_iff] at hlt
  have h1 : x ≠ ⊤ := ne_of_lt hlt.1
  have h2 : x ≠ ⊥ := by
    intro hh
    subst hh
    simp at hlt
  lift x to ℝ using ⟨h1, h2⟩
  exact ⟨x, rfl⟩

/-- A 32-bit word w with 0 ≤ w and w < 2048 as signed numbers has unsigned value below 2048 (a word of unsigned
    value 2³¹ or more reads negative), so it is the word of a class number t < 2048. -/
private theorem class_of_bounds (w : BitVec 32) (h0 : IntOp.cmpi .sge w 0#32 = 1#1)
    (h1 : IntOp.cmpi .slt w 2048#32 = 1#1) : ∃ t : Fin 2048, w = BitVec.ofNat 32 t.val := by
  unfold IntOp.cmpi at h0 h1
  rw [StableHlo.Predicate.ofBool_eq_one_iff] at h0 h1
  simp only [BitVec.sle, BitVec.slt, decide_eq_true_eq] at h0 h1
  have z : (0#32 : BitVec 32).toInt = 0 := by decide
  have k : (2048#32 : BitVec 32).toInt = 2048 := by decide
  rw [z] at h0
  rw [k] at h1
  have hw : w.toNat < 2048 := by
    have hlt := w.isLt
    have ht := BitVec.toInt_eq_toNat_cond w
    split at ht <;> omega
  exact ⟨⟨w.toNat, hw⟩, by simp⟩

/-- The precondition, all ones, gives: real features, real means, labels that are class numbers. -/
theorem of_pre (a0 : FVec Ideal S16384x128 .f32) (a1 : FVec Ideal S2048x128 .f32) (a2 : IVec S16384 32)
    (h : Cert.Pre_finite_inputs.fn (F := Ideal) a0 a1 a2 = fun _ => 1#1) :
    (∀ i, ∃ r : ℝ, a0 i = (r : EReal)) ∧ (∀ i, ∃ r : ℝ, a1 i = (r : EReal))
      ∧ (∀ i, ∃ t : Fin 2048, a2 i = BitVec.ofNat 32 t.val) := by
  -- the scalar result has one index
  haveI : Subsingleton S_.Idx := ⟨fun a b => funext fun d => d.elim0⟩
  have e := congrFun h ValueIdx.ix0
  dsimp only [Cert.Pre_finite_inputs.fn] at e
  -- the result is the conjunction of three "all" reductions: each of them is 1
  obtain ⟨e12, e3⟩ := IntOp.andi_eq_one.1 e
  obtain ⟨e1, e2⟩ := IntOp.andi_eq_one.1 e12
  -- the pattern 0x7F800000 denotes +∞
  have htop : Ideal.ofBits .f32 0x7F800000#32 = ⊤ := by simp [Ideal.ofBits, Ideal.ieee]
  refine ⟨fun i => ?_, fun i => ?_, fun i => ?_⟩
  · -- element i of the first mask: |a0 i| < +∞
    have hi := Host.reduce_andi_all _ _ _ _ _ e1 i
    have hc : Ideal.cmp .olt (max (a0 i) (-(a0 i))) (Ideal.ofBits .f32 0x7F800000#32) = 1#1 := hi
    rw [htop] at hc
    exact real_of_abs_lt_top _ hc
  · -- element i of the second mask: |a1 i| < +∞
    have hi := Host.reduce_andi_all _ _ _ _ _ e2 i
    have hc : Ideal.cmp .olt (max (a1 i) (-(a1 i))) (Ideal.ofBits .f32 0x7F800000#32) = 1#1 := hi
    rw [htop] at hc
    exact real_of_abs_lt_top _ hc
  · -- element i of the third mask: (a2 i ≥ 0) and (a2 i < 2048), signed
    have hi := Host.reduce_andi_all _ _ _ _ _ e3 i
    obtain ⟨g0, g1⟩ := IntOp.andi_eq_one.1 hi
    exact class_of_bounds (a2 i) g0 g1

end Cert.PreDecode

end
-- ==== Proof.lean ====
/-
  The certificate of a nearest-class-mean cross-entropy loss.  For 16384 samples with 128 features, 2048 class means and
  one label per sample, both programs compute the mean over the samples of −log softmax(−d)[label], where d(i, j) =
  √(max(‖xᵢ‖² + ‖μⱼ‖² − 2⟨xᵢ, μⱼ⟩, 0)).  The kernel folds the factor −2 into the feature rows before the product with the
  means, takes the means' squared norms from a table, picks the distance at the label by a mask over the classes (the label
  clamped into [0, 2047] first), forms the loss as (d at the label − min d) + log Σ exp(min d − d), and sums 512 samples per
  grid point into lane 0 of one accumulator block per half of the samples, the two halves added and divided by 16384
  afterwards.  The reference subtracts 2⟨xᵢ, μⱼ⟩, forms the log-softmax with the maximum of −d, gathers it at the label and
  takes the mean.  With real features and means the two distances are the same real number, max(−d) = −min d, and the
  two losses are the same extended real; with labels that are class numbers the clamp does nothing and the gather reads
  the labelled class; the sums regroup.  The precondition supplies exactly these: finite features and means, labels in
  [0, 2048).
-/
import proofs.«412546_j45981919871001_3_alg».proof.Defs
import proofs.«412546_j45981919871001_3_alg».proof.Proof.Gen.Kernel
import proofs.«412546_j45981919871001_3_alg».proof.Proof.Gen.Kernel.Frame
import proofs.«412546_j45981919871001_3_alg».proof.Proof.Gen.KernelIdeal
import proofs.«412546_j45981919871001_3_alg».proof.Proof.Gen.KernelIdeal.Frame
import proofs.«412546_j45981919871001_3_alg».proof.Proof.Gen.ReferenceIdeal
import proofs.«412546_j45981919871001_3_alg».proof.Proof.Gen.Pre_finite_inputs
import proofs.«412546_j45981919871001_3_alg».proof.Proof.KernelFinal
import proofs.«412546_j45981919871001_3_alg».proof.Proof.KernelTail
import proofs.«412546_j45981919871001_3_alg».proof.Proof.RefRunStages
import proofs.«412546_j45981919871001_3_alg».proof.Proof.RefValue
import proofs.«412546_j45981919871001_3_alg».proof.Proof.PreDecode
import Idealize.ShloMosaic.Adequacy
import Idealize.ShloMosaic.Init

noncomputable section

namespace Cert.Proof

open Idealize.ShloMosaic Idealize.SL.Sem Idealize.ShloMosaic.ValueIdx

/-- A class number is its own clamp into [0, 2047]. -/
theorem clampW_ofNat (t : Fin 2048) :
    Cert.KernelIdeal.HostPre.clampW (BitVec.ofNat 32 t.val) = BitVec.ofNat 32 t.val := by
  have ht := t.isLt
  have hw : (BitVec.ofNat 32 t.val).toInt = t.val := StableHlo.Predicate.toInt_ofNat_small t.val (by omega)
  have h2047 : (2047#32 : BitVec 32).toInt = 2047 := by decide
  have h0 : (0#32 : BitVec 32).toInt = 0 := by decide
  unfold Cert.KernelIdeal.HostPre.clampW
  have hmax : IntOp.maxsi 0#32 (BitVec.ofNat 32 t.val) = BitVec.ofNat 32 t.val := by
    unfold IntOp.maxsi
    rw [if_neg]
    simp only [BitVec.slt, hw, h0, decide_eq_true_eq]
    omega
  rw [hmax]
  unfold IntOp.minsi
  rw [if_neg]
  simp only [BitVec.slt, hw, h2047, decide_eq_true_eq]
  omega

/-- The three frames: the two kernels' are generated whole; the reference's is its run with the result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunStages.run (F := Ideal) m ρ)

/-- The ideal pass rewrote nothing. -/
theorem preserves : Cert.preserves_Kernel_KernelIdeal := trivial

/-- One sample: the kernel's loss of sample `i` of a memory is the reference's loss of the same sample, when the features and
    means are real and the label is a class number. -/
theorem loss_eq (m : (ℓ : Loc Cert.KernelIdeal.nD Cert.KernelIdeal.τ Cert.KernelIdeal.sig) → Buf (Elt Ideal) ℓ) (c : Dev Cert.KernelIdeal.nD)
    (hx : ∀ i, ∃ r : ℝ, (m ((c.tc : Thread Cert.KernelIdeal.nD Cert.KernelIdeal.τ).loc Cert.KernelIdeal.main_arg0) : Cert.KernelIdeal.S16384x128.Idx → EReal) i = (r : EReal))
    (hμ : ∀ i, ∃ r : ℝ, (m ((c.tc : Thread Cert.KernelIdeal.nD Cert.KernelIdeal.τ).loc Cert.KernelIdeal.main_arg1) : Cert.KernelIdeal.S2048x128.Idx → EReal) i = (r : EReal))
    (ht : ∀ i, ∃ t : Fin 2048, (m ((c.tc : Thread Cert.KernelIdeal.nD Cert.KernelIdeal.τ).loc Cert.KernelIdeal.main_arg2) : Cert.KernelIdeal.S16384.Idx → BitVec 32) i = BitVec.ofNat 32 t.val)
    (i : Fin 16384) :
    Cert.KernelIdeal.KValue.loss m c i.val
      = Cert.Spec.rowR (fun k => (m ((c.tc : Thread Cert.KernelIdeal.nD Cert.KernelIdeal.τ).loc Cert.KernelIdeal.main_arg0) : Cert.KernelIdeal.S16384x128.Idx → EReal) (ix2 i k))
          (fun j k => (m ((c.tc : Thread Cert.KernelIdeal.nD Cert.KernelIdeal.τ).loc Cert.KernelIdeal.main_arg1) : Cert.KernelIdeal.S2048x128.Idx → EReal) (ix2 j k))
          (Cert.Spec.cls ((m ((c.tc : Thread Cert.KernelIdeal.nD Cert.KernelIdeal.τ).loc Cert.KernelIdeal.main_arg2) : Cert.KernelIdeal.S16384.Idx → BitVec 32) (ix1 i))) := by
  unfold Cert.KernelIdeal.KValue.loss
  have ef : Cert.KernelIdeal.KValue.feat m c i.val = fun k => (m ((c.tc : Thread Cert.KernelIdeal.nD Cert.KernelIdeal.τ).loc Cert.KernelIdeal.main_arg0) : Cert.KernelIdeal.S16384x128.Idx → EReal) (ix2 i k) := by
    funext k
    unfold Cert.KernelIdeal.KValue.feat
    rw [dif_pos i.isLt]
  have el : Cert.KernelIdeal.KValue.lab m c i.val = (m ((c.tc : Thread Cert.KernelIdeal.nD Cert.KernelIdeal.τ).loc Cert.KernelIdeal.main_arg2) : Cert.KernelIdeal.S16384.Idx → BitVec 32) (ix1 i) := by
    unfold Cert.KernelIdeal.KValue.lab
    rw [dif_pos i.isLt]
  rw [ef, el]
  obtain ⟨t, htt⟩ := ht (ix1 i)
  rw [htt, clampW_ofNat, Cert.Spec.cls_ofNat]
  exact Cert.Spec.row_eq _ _ t (fun k => hx (ix2 i k)) (fun j k => hμ (ix2 j k))

/-- The two idealized programs end with the same result: the kernel's run leaves `Spec.totalK` of its per-sample losses, the
    reference's `Spec.totalR` of its own, the totals regroup one sum (`Spec.total_eq`) and the losses agree sample by sample. -/
theorem algebraic : Cert.algebraic_KernelIdeal_ReferenceIdeal := by
  intro m ρ m' ρ' hpre hagree
  refine ⟨fun c => fun _ => Cert.Spec.totalK (Cert.KernelIdeal.KValue.loss m c), Cert.KernelIdeal.KTail.run_of m ρ (Cert.KernelIdeal.KValue.final_lane0 m), ?_⟩
  refine (θ_run Cert.ReferenceIdeal.defs _ _).mono (fun r h c => ⟨(h c).1.trans ?_, (h c).2⟩)
    (Cert.ReferenceIdeal.RunStages.run (F := Ideal) m' ρ')
  obtain ⟨hx, hμ, ht⟩ := Cert.PreDecode.of_pre _ _ _ (hpre c)
  rw [(hagree c).1, (hagree c).2.1, (hagree c).2.2]
  rw [Cert.ReferenceIdeal.RefValue.result_eq _ _ _ (fun i => ht (ix1 i))]
  funext _
  show _ = Cert.Spec.totalK (Cert.KernelIdeal.KValue.loss m c)
  rw [Cert.Spec.total_eq]
  exact (congrArg Cert.Spec.totalR (funext fun i => loss_eq m c hx hμ ht i)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
